-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S16x524288x2 : Shape := ⟨3, ![16, 524288, 2]⟩
abbrev S35x64 : Shape := ⟨2, ![35, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S16x524288x2 : S_.BroadcastsInDim S16x524288x2 (![] : Fin 0 → Fin S16x524288x2.rank)
  reducesTo_S16x524288x2_S_d0_1_2 : S16x524288x2.ReducesTo [0, 1, 2] S_
  bcast_S_S35x64 : S_.BroadcastsInDim S35x64 (![] : Fin 0 → Fin S35x64.rank)
  reducesTo_S35x64_S_d0_1 : S35x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S64x4 .f32) (main_arg8 : FVec F S4 .f32) (main_v33 : IVec S_ 1) : IVec S_ 1 :=
  let main_v34 : FVec F S64x4 .f32 := Host.absf main_arg7
  let main_cst_12 : FVec F S_ .f32 := constant S_ .f32 0x7F800000#32
  let main_v35 : FVec F S64x4 .f32 := broadcastInDim S64x4 ![] bcast_S_S64x4 main_cst_12
  let main_v36 : IVec S64x4 1 := cmpf .olt main_v34 main_v35
  let main_c_13 : IVec S_ 1 := constantI S_ 1 1#1
  let main_v37 : IVec S_ 1 := (fun x v => Host.reduce IntOp.andi x v reducesTo_S64x4_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x4 .f32) (main_arg8 : FVec F S4 .f32) (main_v13 : IVec S_ 1) (main_v16 : IVec S35x64 1) : IVec S_ 1 :=
  let main_c_5 : IVec S_ 1 := constantI S_ 1 1#1
  let main_v17 : IVec S_ 1 := (fun x v => Host.reduce IntOp.andi x v reducesTo_S35x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S2097152x3 .f32) (main_arg1 : FVec F S2097152x3 .f32) (main_arg2 : FVec F S16x524288x2 .f32) (main_arg3 : FVec F S35x64 .f32) (main_arg4 : FVec F S64 .f32) (main_arg5 : FVec F S64x64 .f32) (main_arg6 : FVec F S64 .f32) (main_arg7 : FVec F S64x4 .f32) (main_arg8 : FVec F S4 .f32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S2097152x3 .f32 := Host.absf main_arg1
  let main_cst_0 : FVec F S_ .f32 := constant S_ .f32 0x7F800000#32
  let main_v5 : FVec F S2097152x3 .f32 := broadcastInDim S2097152x3 ![] bcast_S_S2097152x3 main_cst_0
  let main_v6 : IVec S2097152x3 1 := cmpf .olt main_v4 main_v5
  let main_c_1 : IVec S_ 1 := constantI S_ 1 1#1
  let main_v7 : IVec S_ 1 := (fun x v => Host.reduce IntOp.andi x v reducesTo_S2097152x3_S_d0_1 h_S_) main_v6 main_c_1
  let main_v8 : IVec S_ 1 := andi main_v3 main_v7
  let main_v9 : FVec F S16x524288x2 .f32 := Host.absf main_arg2
  let main_cst_2 : FVec F S_ .f32 := constant S_ .f32 0x7F800000#32
  let main_v10 : FVec F S16x524288x2 .f32 := broadcastInDim S16x524288x2 ![] bcast_S_S16x524288x2 main_cst_2
  let main_v11 : IVec S16x524288x2 1 := cmpf .olt main_v9 main_v10
  let main_c_3 : IVec S_ 1 := constantI S_ 1 1#1
  let main_v12 : IVec S_ 1 := (fun x v => Host.reduce IntOp.andi x v reducesTo_S16x524288x2_S_d0_1_2 h_S_) main_v11 main_c_3
  let main_v13 : IVec S_ 1 := andi main_v8 main_v12
  let main_v14 : FVec F S35x64 .f32 := Host.absf main_arg3
  let main_cst_4 : FVec F S_ .f32 := constant S_ .f32 0x7F800000#32
  let main_v15 : FVec F S35x64 .f32 := broadcastInDim S35x64 ![] bcast_S_S35x64 main_cst_4
  let main_v16 : IVec S35x64 1 := cmpf .olt main_v14 main_v15
  fn_part1 (F := F) main_arg4 main_arg5 main_arg6 main_arg7 main_arg8 main_v13 main_v16
-- ==== Kernel.lean ====
abbrev S2097152x3 : Shape := ⟨2, ![2097152, 3]⟩
abbrev S16x524288x2 : Shape := ⟨3, ![16, 524288, 2]⟩
abbrev S35x64 : Shape := ⟨2, ![35, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S16 : Shape := ⟨1, ![16]⟩
abbrev S1x2097152x3 : Shape := ⟨3, ![1, 2097152, 3]⟩
abbrev S16x1x1 : Shape := ⟨3, ![16, 1, 1]⟩
abbrev S16x2097152x3 : Shape := ⟨3, ![16, 2097152, 3]⟩
abbrev S16x2097152x1 : Shape := ⟨3, ![16, 2097152, 1]⟩
abbrev S16x2097152 : Shape := ⟨2, ![16, 2097152]⟩
abbrev S_ : Shape := ⟨0, ![]⟩
abbrev S16x2097152x2 : Shape := ⟨3, ![16, 2097152, 2]⟩
abbrev S2097152x16x2 : Shape := ⟨3, ![2097152, 16, 2]⟩
abbrev S2097152x32 : Shape := ⟨2, ![2097152, 32]⟩
abbrev S2097152x35 : Shape := ⟨2, ![2097152, 35]⟩
abbrev S1x64 : Shape := ⟨2, ![1, 64]⟩
abbrev S1x4 : Shape := ⟨2, ![1, 4]⟩
abbrev S2097152x4 : Shape := ⟨2, ![2097152, 4]⟩
abbrev S8192x35 : Shape := ⟨2, ![8192, 35]⟩
abbrev S8192x4 : Shape := ⟨2, ![8192, 4]⟩
abbrev S8192x64 : Shape := ⟨2, ![8192, 64]⟩
abbrev S8192x3 : Shape := ⟨2, ![8192, 3]⟩
abbrev S8192x1 : Shape := ⟨2, ![8192, 1]⟩
abbrev S2097152x1 : Shape := ⟨2, ![2097152, 1]⟩

abbrev nBuf : Space → Nat
  | .hbm => 74
  | .vmem => 10
  | .smem => 0
  | _ => 0

abbrev bufTy : (tb : Table) → Fin (tcTables nBuf tb) → BufTy
  | .hbm, ⟨0, _⟩ => ⟨S2097152x3, .f32⟩
  | .hbm, ⟨1, _⟩ => ⟨S2097152x3, .f32⟩
  | .hbm, ⟨2, _⟩ => ⟨S16x524288x2, .f32⟩
  | .hbm, ⟨3, _⟩ => ⟨S35x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x4, .f32⟩
  | .hbm, ⟨8, _⟩ => ⟨S4, .f32⟩
  | .hbm, ⟨9, _⟩ => ⟨S16, .f32⟩
  | .hbm, ⟨10, _⟩ => ⟨S1x2097152x3, .f32⟩
  | .hbm, ⟨11, _⟩ => ⟨S16x1x1, .f32⟩
  | .hbm, ⟨12, _⟩ => ⟨S16x2097152x3, .f32⟩
  | .hbm, ⟨13, _⟩ => ⟨S16x2097152x3, .f32⟩
  | .hbm, ⟨14, _⟩ => ⟨S16x2097152x3, .f32⟩
  | .hbm, ⟨15, _⟩ => ⟨S16x2097152x3, .f32⟩
  | .hbm, ⟨16, _⟩ => ⟨S16x2097152x3, .i32⟩
  | .hbm, ⟨17, _⟩ => ⟨S16x2097152x1, .i32⟩
  | .hbm, ⟨18, _⟩ => ⟨S16x2097152, .i32⟩
  | .hbm, ⟨19, _⟩ => ⟨S_, .i32⟩
  | .hbm, ⟨20, _⟩ => ⟨S16x2097152, .i32⟩
  | .hbm, ⟨21, _⟩ => ⟨S16x2097152, .i32⟩
  | .hbm, ⟨22, _⟩ => ⟨S16x2097152x1, .i32⟩
  | .hbm, ⟨23, _⟩ => ⟨S16x2097152, .i32⟩
  | .hbm, ⟨24, _⟩ => ⟨S_, .i32⟩
  | .hbm, ⟨25, _⟩ => ⟨S16x2097152, .i32⟩
  | .hbm, ⟨26, _⟩ => ⟨S16x2097152, .i32⟩
  | .hbm, ⟨27, _⟩ => ⟨S16x2097152, .i32⟩
  | .hbm, ⟨28, _⟩ => ⟨S16x2097152x1, .i32⟩
  | .hbm, ⟨29, _⟩ => ⟨S16x2097152, .i32⟩
  | .hbm, ⟨30, _⟩ => ⟨S_, .i32⟩
  | .hbm, ⟨31, _⟩ => ⟨S16x2097152, .i32⟩
  | .hbm, ⟨32, _⟩ => ⟨S16x2097152, .i32⟩
  | .hbm, ⟨33, _⟩ => ⟨S16x2097152, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S16x2097152, .i32⟩
  | .hbm, ⟨41, _⟩ => ⟨S16x2097152, .i32⟩
  | .hbm, ⟨42, _⟩ => ⟨S_, .i32⟩
  | .hbm, ⟨43, _⟩ => ⟨S16x2097152, .i32⟩
  | .hbm, ⟨44, _⟩ => ⟨S16x2097152, .i1⟩
  | .hbm, ⟨45, _⟩ => ⟨S_, .i32⟩
  | .hbm, ⟨46, _⟩ => ⟨S16x2097152, .i32⟩
  | .hbm, ⟨47, _⟩ => ⟨S16x2097152, .i1⟩
  | .hbm, ⟨48, _⟩ => ⟨S_, .i32⟩
  | .hbm, ⟨49, _⟩ => ⟨S_, .i1⟩
  | .hbm, ⟨50, _⟩ => ⟨S16x2097152, .i1⟩
  | .hbm, ⟨51, _⟩ => ⟨S16x2097152, .i1⟩
  | .hbm, ⟨52, _⟩ => ⟨S16x2097152, .i1⟩
  | .hbm, ⟨53, _⟩ => ⟨S16x2097152, .i32⟩
  | .hbm, ⟨54, _⟩ => ⟨S16x2097152, .i32⟩
  | .hbm, ⟨55, _⟩ => ⟨S16x2097152, .i32⟩
  | .hbm, ⟨56, _⟩ => ⟨S_, .i32⟩
  | .hbm, ⟨57, _⟩ => ⟨S16x2097152, .i32⟩
  | .hbm, ⟨58, _⟩ => ⟨S16x2097152, .i1⟩
  | .hbm, ⟨59, _⟩ => ⟨S_, .i32⟩
  | .hbm, ⟨60, _⟩ => ⟨S16x2097152, .i32⟩
  | .hbm, ⟨61, _⟩ => ⟨S16x2097152, .i32⟩
  | .hbm, ⟨62, _⟩ => ⟨S16x2097152, .i32⟩
  | .hbm, ⟨63, _⟩ => ⟨S16x2097152x1, .i32⟩
  | .hbm, ⟨64, _⟩ => ⟨S16x2097152x2, .f32⟩
  | .hbm, ⟨65, _⟩ => ⟨S2097152x16x2, .f32⟩
  | .hbm, ⟨66, _⟩ => ⟨S2097152x32, .f32⟩
  | .hbm, ⟨67, _⟩ => ⟨S2097152x35, .f32⟩
  | .hbm, ⟨68, _⟩ => ⟨S1x64, .f32⟩
  | .hbm, ⟨69, _⟩ => ⟨S1x64, .f32⟩
  | .hbm, ⟨70, _⟩ => ⟨S1x4, .f32⟩
  | .hbm, ⟨71, _⟩ => ⟨S2097152x4, .f32⟩
  | .hbm, ⟨72, _⟩ => ⟨S2097152x3, .f32⟩
  | .hbm, ⟨73, _⟩ => ⟨S2097152x1, .f32⟩
  | .local _ .vmem, ⟨0, _⟩ => ⟨S8192x35, .f32⟩
  | .local _ .vmem, ⟨1, _⟩ => ⟨S8192x35, .f32⟩
  | .local _ .vmem, ⟨2, _⟩ => ⟨S35x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x4, .f32⟩
  | .local _ .vmem, ⟨7, _⟩ => ⟨S1x4, .f32⟩
  | .local _ .vmem, ⟨8, _⟩ => ⟨S8192x4, .f32⟩
  | .local _ .vmem, ⟨9, _⟩ => ⟨S8192x4, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_1 : Ref sig .tc := ⟨.hbm, 42, rfl⟩
abbrev main_call0_v5 : Ref sig .tc := ⟨.hbm, 43, rfl⟩
abbrev main_call0_v6 : Ref sig .tc := ⟨.hbm, 44, rfl⟩
abbrev main_call0_c_2 : Ref sig .tc := ⟨.hbm, 45, rfl⟩
abbrev main_call0_v7 : Ref sig .tc := ⟨.hbm, 46, rfl⟩
abbrev main_call0_v8 : Ref sig .tc := ⟨.hbm, 47, rfl⟩
abbrev main_call0_c_3 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_v21 : Ref sig .tc := ⟨.hbm, 55, rfl⟩
abbrev main_c_3 : Ref sig .tc := ⟨.hbm, 56, rfl⟩
abbrev main_v22 : Ref sig .tc := ⟨.hbm, 57, rfl⟩
abbrev main_v23 : Ref sig .tc := ⟨.hbm, 58, rfl⟩
abbrev main_c_4 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x35 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S35x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S2097152x3_S1x2097152x3_1_2 : S2097152x3.BroadcastsInDim S1x2097152x3 (![1, 2] : Fin 2 → Fin S1x2097152x3.rank)
  bcast_S16_S16x1x1_0 : S16.BroadcastsInDim S16x1x1 (![0] : Fin 1 → Fin S16x1x1.rank)
  bcast_S1x2097152x3_S16x2097152x3_0_1_2 : S1x2097152x3.BroadcastsInDim S16x2097152x3 (![0, 1, 2] : Fin 3 → Fin S16x2097152x3.rank)
  bcast_S16x1x1_S16x2097152x3_0_1_2 : S16x1x1.BroadcastsInDim S16x2097152x3 (![0, 1, 2] : Fin 3 → Fin S16x2097152x3.rank)
  slices_S16x2097152x3_S16x2097152x1_0_0_0 : S16x2097152x3.Slices ![0, 0, 0] S16x2097152x1
  shapeCasts_S16x2097152x1_S16x2097152 : S16x2097152x1.ShapeCasts S16x2097152
  bcast_S_S16x2097152 : S_.BroadcastsInDim S16x2097152 (![] : Fin 0 → Fin S16x2097152.rank)
  slices_S16x2097152x3_S16x2097152x1_0_0_1 : S16x2097152x3.Slices ![0, 0, 1] S16x2097152x1
  slices_S16x2097152x3_S16x2097152x1_0_0_2 : S16x2097152x3.Slices ![0, 0, 2] S16x2097152x1
  bcast_S16x2097152_S16x2097152x1_0_1 : S16x2097152.BroadcastsInDim S16x2097152x1 (![0, 1] : Fin 2 → Fin S16x2097152x1.rank)
  transposes_S16x2097152x2_S2097152x16x2_1_0_2 : S16x2097152x2.Transposes [1, 0, 2] S2097152x16x2
  shapeCasts_S2097152x16x2_S2097152x32 : S2097152x16x2.ShapeCasts S2097152x32
  concatenates_S2097152x32_S2097152x3_S2097152x35_d1 : Shape.Concatenates [S2097152x32, S2097152x3] S2097152x35 1
  shapeCasts_S64_S1x64 : S64.ShapeCasts S1x64
  shapeCasts_S4_S1x4 : S4.ShapeCasts S1x4
  inb_S8192x35_S8192x35_0_0 : ∀ a, (![0, 0] : Fin 2 → Nat) a + S8192x35.size a ≤ S8192x35.size a
  h_S8192x35 : 0 < S8192x35.numel
  shapeCasts_S8192x35_S8192x35 : S8192x35.ShapeCasts S8192x35
  bitsLt_bf16_f32 : FTy.bits .bf16 < FTy.bits .f32
  inb_S35x64_S35x64_0_0 : ∀ a, (![0, 0] : Fin 2 → Nat) a + S35x64.size a ≤ S35x64.size a
  h_S35x64 : 0 < S35x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S8192x4 : S1x4.Broadcasts S8192x4
  slices_S8192x4_o0_0_S8192x3 : S8192x4.Slices ![0, 0] S8192x3
  slices_S8192x4_o0_3_S8192x1 : S8192x4.Slices ![0, 3] S8192x1
  concatenates_S8192x3_S8192x1_S8192x4_d1 : Shape.Concatenates [S8192x3, S8192x1] S8192x4 1
  inb_S8192x4_S8192x4_0_0 : ∀ a, (![0, 0] : Fin 2 → Nat) a + S8192x4.size a ≤ S8192x4.size a
  h_S8192x4 : 0 < S8192x4.numel
  slices_S2097152x4_S2097152x3_0_0 : S2097152x4.Slices ![0, 0] S2097152x3
  slices_S2097152x4_S2097152x1_0_3 : S2097152x4.Slices ![0, 3] S2097152x1
  gather_S16x524288x2_S16x2097152x1_S16x2097152x2_2_1_0_0_1_2_112_wf : GatherDims.WF S16x524288x2 S16x2097152x1 S16x2097152x2 [2] [1] [0] [1] [0] 2 ![1, 1, 2]
  dot_S8192x35_S35x64_S8192x64_1_0_0_1_n_n_wf : DotDims.WF S8192x35 S35x64 S8192x64 [1] [0] [0] [1] [] []
  dot_S8192x64_S64x64_S8192x64_1_0_0_1_n_n_wf : DotDims.WF S8192x64 S64x64 S8192x64 [1] [0] [0] [1] [] []
  dot_S8192x64_S64x4_S8192x4_1_0_0_1_n_n_wf : DotDims.WF S8192x64 S64x4 S8192x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x35.size a ≤ S2097152x35.size a
  hwx0_0 : ∀ i : grid0.Coords, EltTy.bits .f32 = 32 ∨ (Rect.block (s := S2097152x35) S8192x35.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S35x64.size a ≤ S35x64.size a
  hwx0_1 : ∀ i : grid0.Coords, EltTy.bits .f32 = 32 ∨ (Rect.block (s := S35x64) S35x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x4.size a ≤ S64x4.size a
  hwx0_5 : ∀ i : grid0.Coords, EltTy.bits .f32 = 32 ∨ (Rect.block (s := S64x4) S64x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x4.size a ≤ S2097152x4.size a
  hwx0_7 : ∀ i : grid0.Coords, EltTy.bits .f32 = 32 ∨ (Rect.block (s := S2097152x4) S8192x4.size (cc0_transform_7 i) (hinb0_7 i)).WholeWords (EltTy.packing .f32)

variable [Facts₀]

def gather_S16x524288x2_S16x2097152x1_S16x2097152x2_2_1_0_0_1_2_112 : GatherDims S16x524288x2 S16x2097152x1 S16x2097152x2 where
  offsetDims := [2]
  collapsedSliceDims := [1]
  operandBatchingDims := [0]
  startIndicesBatchingDims := [0]
  startIndexMap := [1]
  indexVectorDim := 2
  sliceSizes := ![1, 1, 2]
  wf := gather_S16x524288x2_S16x2097152x1_S16x2097152x2_2_1_0_0_1_2_112_wf
def dot_S8192x35_S35x64_S8192x64_1_0_0_1_n_n : DotDims S8192x35 S35x64 S8192x64 where
  lhsContracting := [1]
  rhsContracting := [0]
  lhsNonContracting := [0]
  rhsNonContracting := [1]
  lhsBatch := []
  rhsBatch := []
  wf := dot_S8192x35_S35x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x4_S8192x4_1_0_0_1_n_n : DotDims S8192x64 S64x4 S8192x4 where
  lhsContracting := [1]
  rhsContracting := [0]
  lhsNonContracting := [0]
  rhsNonContracting := [1]
  lhsBatch := []
  rhsBatch := []
  wf := dot_S8192x64_S64x4_S8192x4_1_0_0_1_n_n_wf

abbrev win0_0 : Pipeline.Window sig grid0 :=
  Pipeline.Window.ofSpec (Memref.whole main_v31) S8192x35.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S35x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S8192x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S16x524288x2 : Shape := ⟨3, ![16, 524288, 2]⟩
abbrev S35x64 : Shape := ⟨2, ![35, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S16 : Shape := ⟨1, ![16]⟩
abbrev S1x2097152x3 : Shape := ⟨3, ![1, 2097152, 3]⟩
abbrev S16x1x1 : Shape := ⟨3, ![16, 1, 1]⟩
abbrev S16x2097152x3 : Shape := ⟨3, ![16, 2097152, 3]⟩
abbrev S16x2097152x1 : Shape := ⟨3, ![16, 2097152, 1]⟩
abbrev S16x2097152 : Shape := ⟨2, ![16, 2097152]⟩
abbrev S_ : Shape := ⟨0, ![]⟩
abbrev S16x2097152x2 : Shape := ⟨3, ![16, 2097152, 2]⟩
abbrev S2097152x16x2 : Shape := ⟨3, ![2097152, 16, 2]⟩
abbrev S2097152x32 : Shape := ⟨2, ![2097152, 32]⟩
abbrev S2097152x35 : Shape := ⟨2, ![2097152, 35]⟩
abbrev S2097152x64 : Shape := ⟨2, ![2097152, 64]⟩
abbrev S1x64 : Shape := ⟨2, ![1, 64]⟩
abbrev S2097152x4 : Shape := ⟨2, ![2097152, 4]⟩
abbrev S1x4 : Shape := ⟨2, ![1, 4]⟩
abbrev S2097152x1 : Shape := ⟨2, ![2097152, 1]⟩

abbrev nBuf : Space → Nat
  | .hbm => 99
  | .vmem => 0
  | .smem => 0
  | _ => 0

abbrev bufTy : (tb : Table) → Fin (tcTables nBuf tb) → BufTy
  | .hbm, ⟨0, _⟩ => ⟨S2097152x3, .f32⟩
  | .hbm, ⟨1, _⟩ => ⟨S2097152x3, .f32⟩
  | .hbm, ⟨2, _⟩ => ⟨S16x524288x2, .f32⟩
  | .hbm, ⟨3, _⟩ => ⟨S35x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x4, .f32⟩
  | .hbm, ⟨8, _⟩ => ⟨S4, .f32⟩
  | .hbm, ⟨9, _⟩ => ⟨S16, .f32⟩
  | .hbm, ⟨10, _⟩ => ⟨S1x2097152x3, .f32⟩
  | .hbm, ⟨11, _⟩ => ⟨S16x1x1, .f32⟩
  | .hbm, ⟨12, _⟩ => ⟨S16x2097152x3, .f32⟩
  | .hbm, ⟨13, _⟩ => ⟨S16x2097152x3, .f32⟩
  | .hbm, ⟨14, _⟩ => ⟨S16x2097152x3, .f32⟩
  | .hbm, ⟨15, _⟩ => ⟨S16x2097152x3, .f32⟩
  | .hbm, ⟨16, _⟩ => ⟨S16x2097152x3, .i32⟩
  | .hbm, ⟨17, _⟩ => ⟨S16x2097152x1, .i32⟩
  | .hbm, ⟨18, _⟩ => ⟨S16x2097152, .i32⟩
  | .hbm, ⟨19, _⟩ => ⟨S_, .i32⟩
  | .hbm, ⟨20, _⟩ => ⟨S16x2097152, .i32⟩
  | .hbm, ⟨21, _⟩ => ⟨S16x2097152, .i32⟩
  | .hbm, ⟨22, _⟩ => ⟨S16x2097152x1, .i32⟩
  | .hbm, ⟨23, _⟩ => ⟨S16x2097152, .i32⟩
  | .hbm, ⟨24, _⟩ => ⟨S_, .i32⟩
  | .hbm, ⟨25, _⟩ => ⟨S16x2097152, .i32⟩
  | .hbm, ⟨26, _⟩ => ⟨S16x2097152, .i32⟩
  | .hbm, ⟨27, _⟩ => ⟨S16x2097152, .i32⟩
  | .hbm, ⟨28, _⟩ => ⟨S16x2097152x1, .i32⟩
  | .hbm, ⟨29, _⟩ => ⟨S16x2097152, .i32⟩
  | .hbm, ⟨30, _⟩ => ⟨S_, .i32⟩
  | .hbm, ⟨31, _⟩ => ⟨S16x2097152, .i32⟩
  | .hbm, ⟨32, _⟩ => ⟨S16x2097152, .i32⟩
  | .hbm, ⟨33, _⟩ => ⟨S16x2097152, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S16x2097152, .i32⟩
  | .hbm, ⟨41, _⟩ => ⟨S16x2097152, .i32⟩
  | .hbm, ⟨42, _⟩ => ⟨S_, .i32⟩
  | .hbm, ⟨43, _⟩ => ⟨S16x2097152, .i32⟩
  | .hbm, ⟨44, _⟩ => ⟨S16x2097152, .i1⟩
  | .hbm, ⟨45, _⟩ => ⟨S_, .i32⟩
  | .hbm, ⟨46, _⟩ => ⟨S16x2097152, .i32⟩
  | .hbm, ⟨47, _⟩ => ⟨S16x2097152, .i1⟩
  | .hbm, ⟨48, _⟩ => ⟨S_, .i32⟩
  | .hbm, ⟨49, _⟩ => ⟨S_, .i1⟩
  | .hbm, ⟨50, _⟩ => ⟨S16x2097152, .i1⟩
  | .hbm, ⟨51, _⟩ => ⟨S16x2097152, .i1⟩
  | .hbm, ⟨52, _⟩ => ⟨S16x2097152, .i1⟩
  | .hbm, ⟨53, _⟩ => ⟨S16x2097152, .i32⟩
  | .hbm, ⟨54, _⟩ => ⟨S16x2097152, .i32⟩
  | .hbm, ⟨55, _⟩ => ⟨S16x2097152, .i32⟩
  | .hbm, ⟨56, _⟩ => ⟨S_, .i32⟩
  | .hbm, ⟨57, _⟩ => ⟨S16x2097152, .i32⟩
  | .hbm, ⟨58, _⟩ => ⟨S16x2097152, .i1⟩
  | .hbm, ⟨59, _⟩ => ⟨S_, .i32⟩
  | .hbm, ⟨60, _⟩ => ⟨S16x2097152, .i32⟩
  | .hbm, ⟨61, _⟩ => ⟨S16x2097152, .i32⟩
  | .hbm, ⟨62, _⟩ => ⟨S16x2097152, .i32⟩
  | .hbm, ⟨63, _⟩ => ⟨S16x2097152x1, .i32⟩
  | .hbm, ⟨64, _⟩ => ⟨S16x2097152x2, .f32⟩
  | .hbm, ⟨65, _⟩ => ⟨S2097152x16x2, .f32⟩
  | .hbm, ⟨66, _⟩ => ⟨S2097152x32, .f32⟩
  | .hbm, ⟨67, _⟩ => ⟨S2097152x35, .f32⟩
  | .hbm, ⟨68, _⟩ => ⟨S2097152x64, .f32⟩
  | .hbm, ⟨69, _⟩ => ⟨S1x64, .f32⟩
  | .hbm, ⟨70, _⟩ => ⟨S2097152x64, .f32⟩
  | .hbm, ⟨71, _⟩ => ⟨S2097152x64, .f32⟩
  | .hbm, ⟨72, _⟩ => ⟨S_, .f32⟩
  | .hbm, ⟨73, _⟩ => ⟨S2097152x64, .f32⟩
  | .hbm, ⟨74, _⟩ => ⟨S2097152x64, .f32⟩
  | .hbm, ⟨75, _⟩ => ⟨S2097152x64, .f32⟩
  | .hbm, ⟨76, _⟩ => ⟨S1x64, .f32⟩
  | .hbm, ⟨77, _⟩ => ⟨S2097152x64, .f32⟩
  | .hbm, ⟨78, _⟩ => ⟨S2097152x64, .f32⟩
  | .hbm, ⟨79, _⟩ => ⟨S_, .f32⟩
  | .hbm, ⟨80, _⟩ => ⟨S2097152x64, .f32⟩
  | .hbm, ⟨81, _⟩ => ⟨S2097152x64, .f32⟩
  | .hbm, ⟨82, _⟩ => ⟨S2097152x4, .f32⟩
  | .hbm, ⟨83, _⟩ => ⟨S1x4, .f32⟩
  | .hbm, ⟨84, _⟩ => ⟨S2097152x4, .f32⟩
  | .hbm, ⟨85, _⟩ => ⟨S2097152x4, .f32⟩
  | .hbm, ⟨86, _⟩ => ⟨S2097152x3, .f32⟩
  | .hbm, ⟨87, _⟩ => ⟨S2097152x3, .f32⟩
  | .hbm, ⟨88, _⟩ => ⟨S2097152x3, .f32⟩
  | .hbm, ⟨89, _⟩ => ⟨S_, .f32⟩
  | .hbm, ⟨90, _⟩ => ⟨S2097152x3, .f32⟩
  | .hbm, ⟨91, _⟩ => ⟨S2097152x3, .f32⟩
  | .hbm, ⟨92, _⟩ => ⟨S_, .f32⟩
  | .hbm, ⟨93, _⟩ => ⟨S2097152x3, .f32⟩
  | .hbm, ⟨94, _⟩ => ⟨S2097152x3, .f32⟩
  | .hbm, ⟨95, _⟩ => ⟨S2097152x1, .f32⟩
  | .hbm, ⟨96, _⟩ => ⟨S_, .f32⟩
  | .hbm, ⟨97, _⟩ => ⟨S2097152x1, .f32⟩
  | .hbm, ⟨98, _⟩ => ⟨S2097152x1, .f32⟩
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_1 : Ref sig .tc := ⟨.hbm, 42, rfl⟩
abbrev main_call0_v5 : Ref sig .tc := ⟨.hbm, 43, rfl⟩
abbrev main_call0_v6 : Ref sig .tc := ⟨.hbm, 44, rfl⟩
abbrev main_call0_c_2 : Ref sig .tc := ⟨.hbm, 45, rfl⟩
abbrev main_call0_v7 : Ref sig .tc := ⟨.hbm, 46, rfl⟩
abbrev main_call0_v8 : Ref sig .tc := ⟨.hbm, 47, rfl⟩
abbrev main_call0_c_3 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_v21 : Ref sig .tc := ⟨.hbm, 55, rfl⟩
abbrev main_c_3 : Ref sig .tc := ⟨.hbm, 56, rfl⟩
abbrev main_v22 : Ref sig .tc := ⟨.hbm, 57, rfl⟩
abbrev main_v23 : Ref sig .tc := ⟨.hbm, 58, rfl⟩
abbrev main_c_4 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_call1_cst : Ref sig .tc := ⟨.hbm, 72, rfl⟩
abbrev main_call1_v0 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call2_cst : Ref sig .tc := ⟨.hbm, 79, rfl⟩
abbrev main_call2_v0 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_5 : Ref sig .tc := ⟨.hbm, 89, rfl⟩
abbrev main_v49 : Ref sig .tc := ⟨.hbm, 90, rfl⟩
abbrev main_v50 : Ref sig .tc := ⟨.hbm, 91, rfl⟩
abbrev main_cst_6 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_call3_cst : Ref sig .tc := ⟨.hbm, 96, rfl⟩
abbrev main_call3_v0 : Ref sig .tc := ⟨.hbm, 97, rfl⟩
abbrev main_v54 : Ref sig .tc := ⟨.hbm, 98, rfl⟩

abbrev nD : Nat := 1
abbrev τ : Topo := Topo.v7x

variable {F : FTy → Type} [FloatOps F]

class Facts₀ : Prop where
  bcast_S2097152x3_S1x2097152x3_1_2 : S2097152x3.BroadcastsInDim S1x2097152x3 (![1, 2] : Fin 2 → Fin S1x2097152x3.rank)
  bcast_S16_S16x1x1_0 : S16.BroadcastsInDim S16x1x1 (![0] : Fin 1 → Fin S16x1x1.rank)
  bcast_S1x2097152x3_S16x2097152x3_0_1_2 : S1x2097152x3.BroadcastsInDim S16x2097152x3 (![0, 1, 2] : Fin 3 → Fin S16x2097152x3.rank)
  bcast_S16x1x1_S16x2097152x3_0_1_2 : S16x1x1.BroadcastsInDim S16x2097152x3 (![0, 1, 2] : Fin 3 → Fin S16x2097152x3.rank)
  slices_S16x2097152x3_S16x2097152x1_0_0_0 : S16x2097152x3.Slices ![0, 0, 0] S16x2097152x1
  shapeCasts_S16x2097152x1_S16x2097152 : S16x2097152x1.ShapeCasts S16x2097152
  bcast_S_S16x2097152 : S_.BroadcastsInDim S16x2097152 (![] : Fin 0 → Fin S16x2097152.rank)
  slices_S16x2097152x3_S16x2097152x1_0_0_1 : S16x2097152x3.Slices ![0, 0, 1] S16x2097152x1
  slices_S16x2097152x3_S16x2097152x1_0_0_2 : S16x2097152x3.Slices ![0, 0, 2] S16x2097152x1
  bcast_S16x2097152_S16x2097152x1_0_1 : S16x2097152.BroadcastsInDim S16x2097152x1 (![0, 1] : Fin 2 → Fin S16x2097152x1.rank)
  transposes_S16x2097152x2_S2097152x16x2_1_0_2 : S16x2097152x2.Transposes [1, 0, 2] S2097152x16x2
  shapeCasts_S2097152x16x2_S2097152x32 : S2097152x16x2.ShapeCasts S2097152x32
  concatenates_S2097152x32_S2097152x3_S2097152x35_d1 : Shape.Concatenates [S2097152x32, S2097152x3] S2097152x35 1
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  bcast_S4_S1x4_1 : S4.BroadcastsInDim S1x4 (![1] : Fin 1 → Fin S1x4.rank)
  bcast_S1x4_S2097152x4_0_1 : S1x4.BroadcastsInDim S2097152x4 (![0, 1] : Fin 2 → Fin S2097152x4.rank)
  slices_S2097152x4_S2097152x3_0_0 : S2097152x4.Slices ![0, 0] S2097152x3
  bcast_S_S2097152x3 : S_.BroadcastsInDim S2097152x3 (![] : Fin 0 → Fin S2097152x3.rank)
  slices_S2097152x4_S2097152x1_0_3 : S2097152x4.Slices ![0, 3] S2097152x1
  bcast_S_S2097152x1 : S_.BroadcastsInDim S2097152x1 (![] : Fin 0 → Fin S2097152x1.rank)
  gather_S16x524288x2_S16x2097152x1_S16x2097152x2_2_1_0_0_1_2_112_wf : GatherDims.WF S16x524288x2 S16x2097152x1 S16x2097152x2 [2] [1] [0] [1] [0] 2 ![1, 1, 2]
  dot_S2097152x35_S35x64_S2097152x64_1_0_0_1_n_n_wf : DotDims.WF S2097152x35 S35x64 S2097152x64 [1] [0] [0] [1] [] []
  dot_S2097152x64_S64x64_S2097152x64_1_0_0_1_n_n_wf : DotDims.WF S2097152x64 S64x64 S2097152x64 [1] [0] [0] [1] [] []
  dot_S2097152x64_S64x4_S2097152x4_1_0_0_1_n_n_wf : DotDims.WF S2097152x64 S64x4 S2097152x4 [1] [0] [0] [1] [] []

variable [Facts₀]

def gather_S16x524288x2_S16x2097152x1_S16x2097152x2_2_1_0_0_1_2_112 : GatherDims S16x524288x2 S16x2097152x1 S16x2097152x2 where
  offsetDims := [2]
  collapsedSliceDims := [1]
  operandBatchingDims := [0]
  startIndicesBatchingDims := [0]
  startIndexMap := [1]
  indexVectorDim := 2
  sliceSizes := ![1, 1, 2]
  wf := gather_S16x524288x2_S16x2097152x1_S16x2097152x2_2_1_0_0_1_2_112_wf
def dot_S2097152x35_S35x64_S2097152x64_1_0_0_1_n_n : DotDims S2097152x35 S35x64 S2097152x64 where
  lhsContracting := [1]
  rhsContracting := [0]
  lhsNonContracting := [0]
  rhsNonContracting := [1]
  lhsBatch := []
  rhsBatch := []
  wf := dot_S2097152x35_S35x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x4_S2097152x4_1_0_0_1_n_n : DotDims S2097152x64 S64x4 S2097152x4 where
  lhsContracting := [1]
  rhsContracting := [0]
  lhsNonContracting := [0]
  rhsNonContracting := [1]
  lhsBatch := []
  rhsBatch := []
  wf := dot_S2097152x64_S64x4_S2097152x4_1_0_0_1_n_n_wf

class Facts : Prop extends Facts₀ where

variable [Facts]
-- ==== Proof.FeatK.lean ====
/-
  The feature array the region finds in its first operand: what the host operations before the region leave there,
  as one function of the three argument arrays it is computed from. The operations are read in four stretches
  (mixing; the called remainder; the row index; the table look-up and the laying out), each as a function of the
  arrays it is entered with, so that no step compares more than one stretch's worth of operations.
-/
import proofs.«154115_j44495861186617_1_alg».proof.Proof.Gen.KernelIdeal.Frame
import Idealize.ShloMosaic.Lib.StableHlo.Run
import Idealize.ShloMosaic.PureOps.Ideal

-- the folds below recurse once per operation of a stretch and once per coordinate of the long axes
set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

/-! ## The feature array: the host operations both programs share, stage by stage

  Each point is scaled by sixteen level resolutions and rounded down to an integer grid cell; the cell's three
  coordinates are multiplied by three fixed odd numbers and combined bit by bit; the result is reduced modulo the
  table length 524288 to a non-negative remainder; the table row so named is looked up at every level, the sixteen
  two-entry rows laid side by side, and the point's three direction entries appended: 35 features per point.
  Every stage is a function of the array the stage before it produced. -/

abbrev I3 := (⟨S16x2097152x3, .i32⟩ : BufTy).Contents (Elt Ideal)
abbrev I2 := (⟨S16x2097152, .i32⟩ : BufTy).Contents (Elt Ideal)
abbrev Pts := (⟨S2097152x3, .f32⟩ : BufTy).Contents (Elt Ideal)

/-- The integer grid cell of every point at every level. -/
def cell (x : Pts) : I3 :=
  fptosi 32 (Host.floor (mulf
    (broadcastInDim S16x2097152x3 ![0, 1, 2] bcast_S1x2097152x3_S16x2097152x3_0_1_2
      (broadcastInDim S1x2097152x3 ![1, 2] bcast_S2097152x3_S1x2097152x3_1_2 x))
    (broadcastInDim S16x2097152x3 ![0, 1, 2] bcast_S16x1x1_S16x2097152x3_0_1_2
      (broadcastInDim S16x1x1 ![0] bcast_S16_S16x1x1_0
        (fun i => FloatOps.ofBits (F := Ideal) .f32 (lit0 (S16.rowMajor i)))))))

/-- One coordinate of the cell (sliced off the last axis) times its fixed multiplier. -/
def scaled (off : Fin S16x2097152x3.rank → Nat) (hs : S16x2097152x3.Slices off S16x2097152x1) (p : BitVec 32) (c : I3) : I2 :=
  muli (shapeCast S16x2097152 (extractStridedSlice S16x2097152x1 off c hs) shapeCasts_S16x2097152x1_S16x2097152)
    (broadcastInDim S16x2097152 ![] bcast_S_S16x2097152 (constantI S_ 32 p))

/-- The three scaled coordinates combined bit by bit. -/
def mixed (c : I3) : I2 :=
  xori (xori (scaled ![0, 0, 0] slices_S16x2097152x3_S16x2097152x1_0_0_0 73856093#32 c)
      (scaled ![0, 0, 1] slices_S16x2097152x3_S16x2097152x1_0_0_1 19349663#32 c))
    (scaled ![0, 0, 2] slices_S16x2097152x3_S16x2097152x1_0_0_2 83492791#32 c)

/-- The divisor the remainder is taken by: the table length, replaced by one if it were zero. -/
def divisor : (⟨S_, .i32⟩ : BufTy).Contents (Elt Ideal) :=
  select (cmpi .eq (constantI S_ 32 524288#32) (constantI S_ 32 0#32)) (constantI S_ 32 1#32) (constantI S_ 32 524288#32)

/-- The truncating remainder by the divisor. -/
def truncRem (h : I2) : I2 := Host.remsi h (broadcastInDim S16x2097152 ![] bcast_S_S16x2097152 divisor)

/-- The remainder with the divisor's sign: the divisor is added back where the truncating remainder is nonzero and
    its sign differs from the divisor's. -/
def floorRem (t : I2) : I2 :=
  select
    (andi
      (cmpi .ne (cmpi .slt t (broadcastInDim S16x2097152 ![] bcast_S_S16x2097152 (constantI S_ 32 0#32)))
        (broadcastInDim S16x2097152 ![] bcast_S_S16x2097152 (cmpi .slt divisor (constantI S_ 32 0#32))))
      (cmpi .ne t (broadcastInDim S16x2097152 ![] bcast_S_S16x2097152 (constantI S_ 32 0#32))))
    (addi t (broadcastInDim S16x2097152 ![] bcast_S_S16x2097152 divisor))
    t

/-- The table row: a negative remainder moved up by the table length. -/
def rowOf (f : I2) : I2 :=
  select (cmpi .slt f (broadcastInDim S16x2097152 ![] bcast_S_S16x2097152 (constantI S_ 32 0#32)))
    (addi f (broadcastInDim S16x2097152 ![] bcast_S_S16x2097152 (constantI S_ 32 524288#32)))
    f

/-- The 35 features of every point from the row indices: the sixteen looked-up rows side by side, then the direction. -/
def featOf (r : I2) (vd : Pts) (tb : (⟨S16x524288x2, .f32⟩ : BufTy).Contents (Elt Ideal)) :
    (⟨S2097152x35, .f32⟩ : BufTy).Contents (Elt Ideal) :=
  concatenate S2097152x35 1
    [⟨S2097152x32, shapeCast S2097152x32
        (transpose S2097152x16x2 [1, 0, 2]
          (Host.gather gather_S16x524288x2_S16x2097152x1_S16x2097152x2_2_1_0_0_1_2_112 tb
            (broadcastInDim S16x2097152x1 ![0, 1] bcast_S16x2097152_S16x2097152x1_0_1 r))
          transposes_S16x2097152x2_S2097152x16x2_1_0_2)
        shapeCasts_S2097152x16x2_S2097152x32⟩,
     ⟨S2097152x3, vd⟩]
    concatenates_S2097152x32_S2097152x3_S2097152x35_d1

/-- The feature array as a function of the three argument arrays. -/
def feat (x vd : Pts) (tb : (⟨S16x524288x2, .f32⟩ : BufTy).Contents (Elt Ideal)) :
    (⟨S2097152x35, .f32⟩ : BufTy).Contents (Elt Ideal) :=
  featOf (rowOf (floorRem (truncRem (mixed (cell x))))) vd tb

/-- The contents after two lists of operations run one after the other. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

/-! ### The four stretches of the shared operations, each read as a function of what it is entered with -/

/-- Scaling, rounding and mixing: the combined word from the points; and the table length the next stretch divides by. -/
theorem mix_stage (W : Valuation τ sig (Elt Ideal)) :
    after hostOps0 W (Proc.devRef .tc main_v20) = mixed (cell (W (Proc.devRef .tc main_arg0)))
    ∧ after hostOps0 W (Proc.devRef .tc main_c_2) = constantI S_ 32 524288#32 := by
  generalize hx : W (Proc.devRef .tc main_arg0) = x
  constructor
  · simp only [hostOps0]
    after_results_simp
    rw [hx]
    rfl
  · simp only [hostOps0]
    after_results_simp

/-- The called remainder: the non-negative-divisor remainder of the word it is entered with. -/
theorem remainder_stage (W : Valuation τ sig (Elt Ideal)) (hc : W (Proc.devRef .tc main_c_2) = constantI S_ 32 524288#32) :
    after hostOps0_1 W (Proc.devRef .tc main_v21) = floorRem (truncRem (W (Proc.devRef .tc main_v20))) := by
  generalize hh : W (Proc.devRef .tc main_v20) = h
  simp only [hostOps0_1]
  after_results_simp
  rw [hh, hc]
  rfl

/-- The row index from the remainder. -/
theorem row_stage (W : Valuation τ sig (Elt Ideal)) :
    after (hostOps0_2.take 7) W (Proc.devRef .tc main_v26) = rowOf (W (Proc.devRef .tc main_v21)) := by
  generalize hf : W (Proc.devRef .tc main_v21) = f
  simp only [hostOps0_2, List.take]
  after_results_simp
  rw [hf]
  rfl

/-- The look-up and the laying out of the features. -/
theorem lookup_stage (W : Valuation τ sig (Elt Ideal)) :
    after (hostOps0_2.drop 7) W (Proc.devRef .tc main_v31)
      = featOf (W (Proc.devRef .tc main_v26)) (W (Proc.devRef .tc main_arg1)) (W (Proc.devRef .tc main_arg2)) := by
  generalize hr : W (Proc.devRef .tc main_v26) = r
  generalize hvd : W (Proc.devRef .tc main_arg1) = vd
  generalize htb : W (Proc.devRef .tc main_arg2) = tb
  simp only [hostOps0_2, List.drop]
  after_results
  rw [hr, hvd, htb]
  rfl

/-- The first three stretches write none of the argument arrays the look-up reads. -/
theorem kept_through (W : Valuation τ sig (Elt Ideal)) :
    after (hostOps0_2.take 7) (after hostOps0_1 (after hostOps0 W)) (Proc.devRef .tc main_arg1) = W (Proc.devRef .tc main_arg1)
    ∧ after (hostOps0_2.take 7) (after hostOps0_1 (after hostOps0 W)) (Proc.devRef .tc main_arg2) = W (Proc.devRef .tc main_arg2) := by
  constructor <;>
  · simp only [hostOps0, hostOps0_1, hostOps0_2, List.take]
    after_results_simp

/-- All four stretches: the feature array from the three argument arrays. -/
theorem feat_stages (W : Valuation τ sig (Elt Ideal)) :
    after (hostOps0_2.drop 7) (after (hostOps0_2.take 7) (after hostOps0_1 (after hostOps0 W))) (Proc.devRef .tc main_v31)
      = feat (W (Proc.devRef .tc main_arg0)) (W (Proc.devRef .tc main_arg1)) (W (Proc.devRef .tc main_arg2)) := by
  obtain ⟨h20, hc⟩ := mix_stage (after [] W)
  rw [after_nil] at h20 hc
  obtain ⟨k1, k2⟩ := kept_through W
  rw [lookup_stage, row_stage, remainder_stage _ hc, h20, k1, k2]
  rfl

variable (m : (ℓ : Loc nD τ sig) → Buf (Elt Ideal) ℓ)

/-- The region's first operand, as the region finds it, is the feature array of the launch contents. -/
theorem V_feat (c : Dev nD) :
    V m c main_v31 = feat (m ((c : Thread nD τ).loc main_arg0)) (m ((c : Thread nD τ).loc main_arg1)) (m ((c : Thread nD τ).loc main_arg2)) := by
  show StableHlo.after (List.flatten [hostOps0, hostOps0_1, hostOps0_2]) (fun b => m (c, b)) (Proc.devRef .tc main_v31) = _
  rw [show List.flatten [hostOps0, hostOps0_1, (hostOps0_2 : List (HloOp τ sig (Elt Ideal)))]
        = hostOps0 ++ (hostOps0_1 ++ (hostOps0_2.take 7 ++ hostOps0_2.drop 7)) from by
      simp only [List.flatten_cons, List.flatten_nil, List.append_nil, List.take_append_drop],
    after_append, after_append, after_append]
  exact feat_stages _

end Cert.KernelIdeal.Hand

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.Mlp.lean ====
/-
  The network both programs compute, on ONE feature row, over the extended reals.

  A dense layer sends a row x (K entries) to the row whose entry n is the sum over k of x k * W k n, plus the bias
  entry b n. The network is three such layers, 35 -> 64 -> 64 -> 4, with the rectifier max(., 0) after the first
  two. Its four outputs are finished differently: the first three through the logistic function 1 / (1 + e^(-v)),
  the fourth through the rectifier. Everything here is stated for one row, so that a program working on blocks
  of rows and a program working on the whole array can each be read, entry by entry, as this one expression.
-/
import Idealize.ShloMosaic.PureOps.Ideal
import Idealize.ShloMosaic.Lib.ValueIdx

noncomputable section

open scoped BigOperators

namespace Cert.Proof.Mlp

open Idealize.ShloMosaic

/-- Zero, as the float word 0 denotes it. -/
def zeroE : EReal := Ideal.ofBits .f32 0x00000000#32

/-- The rectifier. -/
def relu (v : EReal) : EReal := max v zeroE

/-- Entry n of a dense layer on the row x. -/
def dense {K N : Nat} (x : Fin K → EReal) (W : Fin K → Fin N → EReal) (b : Fin N → EReal) (n : Fin N) : EReal :=
  (∑ k : Fin K, x k * W k n) + b n

/-- Output j of the three layers on the feature row f, before the last step. -/
def net (f : Fin 35 → EReal) (W0 : Fin 35 → Fin 64 → EReal) (b0 : Fin 64 → EReal)
    (W1 : Fin 64 → Fin 64 → EReal) (b1 : Fin 64 → EReal) (W2 : Fin 64 → Fin 4 → EReal) (b2 : Fin 4 → EReal)
    (j : Fin 4) : EReal :=
  dense (fun k => relu (dense (fun k' => relu (dense f W0 b0 k')) W1 b1 k)) W2 b2 j

/-- The last step on output column q: the logistic function on columns 0, 1, 2 and the rectifier on column 3. -/
def head (v : EReal) (q : Fin 4) : EReal := if q.val < 3 then Ideal.logistic v else relu v

theorem head_of_lt (v : EReal) (q : Fin 4) (h : q.val < 3) : head v q = Ideal.logistic v := if_pos h

theorem head_three (v : EReal) : head v (3 : Fin 4) = relu v := if_neg (by decide)

/-- The float word 0x3F800000 denotes the real number one. -/
theorem one_word : Ideal.ofBits .f32 0x3F800000#32 = 1 := by
  simp [Ideal.ofBits, Ideal.ieee, -EReal.coe_mul]
  norm_num

/-- The logistic function written out with a quotient, a sum, an exponential and a sign change is the logistic function. -/
theorem logistic_spelt (v : EReal) :
    FloatOps.hostDivf (F := Ideal) (φ := .f32) (Ideal.ofBits .f32 0x3F800000#32)
        (FloatOps.addf (F := Ideal) (φ := .f32) (Ideal.ofBits .f32 0x3F800000#32)
          (FloatOps.hostUnary (F := Ideal) (φ := .f32) .exp (FloatOps.hostNegf (F := Ideal) (φ := .f32) v)))
      = Ideal.logistic v := by
  rw [one_word]
  rfl

end Cert.Proof.Mlp

end
-- ==== Proof.LibDense.lean ====
/-
  ONE DENSE LAYER READ AT ONE ENTRY, in the two forms a program may spell it.

  A dense layer sends a row x to the row whose entry q is the sum over k of x k * W (k, q), plus the bias entry q
  (Mlp.dense). On the host it is written over a whole array [N, K]: the general matrix product with a weight matrix
  [K, b], plus a bias vector of b entries made a 1 x b row and then repeated down the N rows. On the matrix unit it is
  written over a block [n, K]: the product accumulated from zero, both operands narrowed to a shorter float format on
  the way in (which changes nothing over the extended reals), plus a 1 x b bias row repeated down the n rows. Either
  way entry (r, q) is the dense layer's entry q on row r of the operand. The rectifier after it, max(., 0), is read
  the same way in its two spellings (a scalar zero repeated; a zero-rank zero array broadcast).

  Generic in the extents; a program's dimension numbers enter through an equation with the library's plain
  rows-by-columns record.
-/
import proofs.«154115_j44495861186617_1_alg».proof.Proof.LibBlocks
import proofs.«154115_j44495861186617_1_alg».proof.Proof.Mlp

noncomputable section

open scoped BigOperators

namespace Cert.LibDense

open Idealize.ShloMosaic Idealize.ShloMosaic.ValueIdx Cert.Proof

/-- Entry q of a 1 x b row repeated down n rows (a vector broadcast to a larger shape) is the row's entry q. -/
theorem rowDown_apply {n b : Nat} (hb : (⟨2, ![1, b]⟩ : Shape).Broadcasts ⟨2, ![n, b]⟩) (v : FVec Ideal ⟨2, ![1, b]⟩ .f32)
    (p : Fin n) (q : Fin b) : broadcastTo ⟨2, ![n, b]⟩ v hb (ix2 p q) = v (ix2 (0 : Fin 1) q) :=
  broadcastTo_apply v hb (ix2 p q) (ix2 (0 : Fin 1) q) (fun a => by
    match a with
    | ⟨0, _⟩ => rfl
    | ⟨1, _⟩ =>
      show q.val = if b = 1 then 0 else q.val
      have := q.isLt
      split_ifs <;> omega)

/-- Entry (r, q) of a vector of b entries made a 1 x b row and repeated down N rows is the vector's entry q. -/
theorem vecDown_apply {N b : Nat} (h1 : (⟨1, ![b]⟩ : Shape).BroadcastsInDim ⟨2, ![1, b]⟩ ![1])
    (h2 : (⟨2, ![1, b]⟩ : Shape).BroadcastsInDim ⟨2, ![N, b]⟩ ![0, 1]) (v : FVec Ideal ⟨1, ![b]⟩ .f32) (r : Fin N) (q : Fin b) :
    broadcastInDim ⟨2, ![N, b]⟩ ![0, 1] h2 (broadcastInDim ⟨2, ![1, b]⟩ ![1] h1 v) (ix2 r q) = v (ix1 q) := by
  rw [broadcastInDim_apply ![0, 1] h2 _ (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![1] h1 v (ix2 (0 : Fin 1) q) (ix1 q) (fun a => by
      match a with
      | ⟨0, _⟩ =>
        show q.val = if b = 1 then 0 else q.val
        have := q.isLt
        split_ifs <;> omega)]

/-- The host's dense layer at entry (r, q). -/
theorem dense_host_apply {N K b : Nat} (d : DotDims ⟨2, ![N, K]⟩ ⟨2, ![K, b]⟩ ⟨2, ![N, b]⟩) (hd : d = DotDims.plain N K b)
    (h1 : (⟨1, ![b]⟩ : Shape).BroadcastsInDim ⟨2, ![1, b]⟩ ![1]) (h2 : (⟨2, ![1, b]⟩ : Shape).BroadcastsInDim ⟨2, ![N, b]⟩ ![0, 1])
    (x : FVec Ideal ⟨2, ![N, K]⟩ .f32) (W : FVec Ideal ⟨2, ![K, b]⟩ .f32) (bias : FVec Ideal ⟨1, ![b]⟩ .f32) (r : Fin N) (q : Fin b) :
    addf (Host.dotGeneral d none x W) (broadcastInDim ⟨2, ![N, b]⟩ ![0, 1] h2 (broadcastInDim ⟨2, ![1, b]⟩ ![1] h1 bias)) (ix2 r q)
      = Mlp.dense (fun k => x (ix2 r k)) (fun k n => W (ix2 k n)) (fun n => bias (ix1 n)) q := by
  rw [addf_apply, vecDown_apply]
  show FloatOps.dotGeneral d none .single x W (ix2 r q) + _ = _
  rw [LibBlocks.dotGeneral_plain_apply d hd]
  rfl

/-- The matrix unit's dense layer on a block at entry (p, q). -/
theorem dense_block_apply {n K b : Nat} (d : DotDims ⟨2, ![n, K]⟩ ⟨2, ![K, b]⟩ ⟨2, ![n, b]⟩) (hd : d = DotDims.plain n K b)
    (hc : (⟨2, ![1, b]⟩ : Shape).ShapeCasts ⟨2, ![1, b]⟩) (hb : (⟨2, ![1, b]⟩ : Shape).Broadcasts ⟨2, ![n, b]⟩)
    (hlt : FTy.bf16.bits < FTy.f32.bits)
    (g : FVec Ideal ⟨2, ![n, K]⟩ .f32) (W : FVec Ideal ⟨2, ![K, b]⟩ .f32) (bias : FVec Ideal ⟨2, ![1, b]⟩ .f32) (p : Fin n) (q : Fin b) :
    addf (matmul d none (truncf .bf16 g hlt) (truncf .bf16 W hlt) (constant ⟨2, ![n, b]⟩ .f32 0x00000000#32))
        (broadcastTo ⟨2, ![n, b]⟩ (shapeCast ⟨2, ![1, b]⟩ bias hc) hb) (ix2 p q)
      = Mlp.dense (fun k => g (ix2 p k)) (fun k n => W (ix2 k n)) (fun n => bias (ix2 (0 : Fin 1) n)) q := by
  rw [addf_apply, shapeCast_self, rowDown_apply]
  show FloatOps.matmul d none _ _ _ (ix2 p q) + _ = _
  rw [LibBlocks.matmul_plain_apply d hd]
  rfl

/-- The rectifier against a scalar zero repeated over the block. -/
theorem relu_block_apply {s : Shape} (a : FVec Ideal s .f32) (i : s.Idx) :
    maximumf a (broadcast s (Scalar.ofBits (F := Ideal) .f32 0x00000000#32)) i = Mlp.relu (a i) := rfl

/-- The rectifier against a zero-rank zero array broadcast over the array. -/
theorem relu_host_apply {s : Shape} (hz : (⟨0, ![]⟩ : Shape).BroadcastsInDim s ![]) (a : FVec Ideal s .f32) (i : s.Idx) :
    maximumf a (broadcastInDim s ![] hz (constant (F := Ideal) ⟨0, ![]⟩ .f32 0x00000000#32)) i = Mlp.relu (a i) := by
  rw [maximumf_apply, broadcastInDim_apply ![] hz _ i ix0 (fun a => a.elim0)]
  rfl

end Cert.LibDense

end
-- ==== Proof.Body.lean ====
/-
  The kernel body on one block, entry by entry. The body loads a block of 8192 feature rows and the six parameter
  arrays, runs the three dense layers on the matrix unit (the rectifier after the first two), and stores a block
  [8192, 4] whose columns 0, 1, 2 are the logistic function of outputs 0, 1, 2 and whose column 3 is the rectifier of
  output 3, laid side by side. Read at row p, column q, that is the one-row network (Mlp.net) on row p of the loaded
  block, finished by column q's last step (Mlp.head).
-/
import proofs.«154115_j44495861186617_1_alg».proof.Proof.Gen.KernelIdeal.Skeleton
import proofs.«154115_j44495861186617_1_alg».proof.Proof.LibDense
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx Cert.Proof

/-- The four outputs of the block's row p, before the last step: the one-row network on that row, the three bias rows
    read at their only row. -/
abbrev rowNet (x0 : Vec Ideal S8192x35 .f32) (x1 : Vec Ideal S35x64 .f32) (x2 : Vec Ideal S1x64 .f32) (x3 : Vec Ideal S64x64 .f32)
    (x4 : Vec Ideal S1x64 .f32) (x5 : Vec Ideal S64x4 .f32) (x6 : Vec Ideal S1x4 .f32) (p : Fin 8192) (j : Fin 4) : EReal :=
  Mlp.net (fun a => x0 (ix2 p a)) (fun a n => x1 (ix2 a n)) (fun n => x2 (ix2 (0 : Fin 1) n)) (fun a n => x3 (ix2 a n))
    (fun n => x4 (ix2 (0 : Fin 1) n)) (fun a n => x5 (ix2 a n)) (fun n => x6 (ix2 (0 : Fin 1) n)) j

/-- The first hidden layer of the block, as the body computes it. -/
def blk1 (x0 : Vec Ideal S8192x35 .f32) (x1 : Vec Ideal S35x64 .f32) (x2 : Vec Ideal S1x64 .f32) : FVec Ideal S8192x64 .f32 :=
  maximumf (addf (matmul dot_S8192x35_S35x64_S8192x64_1_0_0_1_n_n none (truncf .bf16 (shapeCast S8192x35 x0 shapeCasts_S8192x35_S8192x35) bitsLt_bf16_f32)
      (truncf .bf16 x1 bitsLt_bf16_f32) (constant S8192x64 .f32 0x00000000#32))
      (broadcastTo S8192x64 (shapeCast S1x64 x2 shapeCasts_S1x64_S1x64) broadcasts_S1x64_S8192x64))
    (broadcast S8192x64 (Scalar.ofBits (F := Ideal) .f32 0x00000000#32))

/-- The second hidden layer. -/
def blk2 (g : FVec Ideal S8192x64 .f32) (x3 : Vec Ideal S64x64 .f32) (x4 : Vec Ideal S1x64 .f32) : FVec Ideal S8192x64 .f32 :=
  maximumf (addf (matmul dot_S8192x64_S64x64_S8192x64_1_0_0_1_n_n none (truncf .bf16 g bitsLt_bf16_f32)
      (truncf .bf16 x3 bitsLt_bf16_f32) (constant S8192x64 .f32 0x00000000#32))
      (broadcastTo S8192x64 (shapeCast S1x64 x4 shapeCasts_S1x64_S1x64) broadcasts_S1x64_S8192x64))
    (broadcast S8192x64 (Scalar.ofBits (F := Ideal) .f32 0x00000000#32))

/-- The four outputs of every row of the block. -/
def blkOut (g : FVec Ideal S8192x64 .f32) (x5 : Vec Ideal S64x4 .f32) (x6 : Vec Ideal S1x4 .f32) : FVec Ideal S8192x4 .f32 :=
  addf (matmul dot_S8192x64_S64x4_S8192x4_1_0_0_1_n_n none (truncf .bf16 g bitsLt_bf16_f32)
      (truncf .bf16 x5 bitsLt_bf16_f32) (constant S8192x4 .f32 0x00000000#32))
    (broadcastTo S8192x4 (shapeCast S1x4 x6 shapeCasts_S1x4_S1x4) broadcasts_S1x4_S8192x4)

/-- The stored block from the four outputs: three columns through the logistic function, one through the rectifier. -/
def blkHead (o : FVec Ideal S8192x4 .f32) : FVec Ideal S8192x4 .f32 :=
  concatenate S8192x4 1
    [⟨S8192x3, logistic (extractStridedSlice S8192x3 ![0, 0] o slices_S8192x4_o0_0_S8192x3)⟩,
     ⟨S8192x1, maximumf (extractStridedSlice S8192x1 ![0, 3] o slices_S8192x4_o0_3_S8192x1)
        (broadcast S8192x1 (Scalar.ofBits (F := Ideal) .f32 0x00000000#32))⟩]
    concatenates_S8192x3_S8192x1_S8192x4_d1

/-- The body's stored value is those four stages, one after the other. -/
theorem pay_eq (x0 : Vec Ideal S8192x35 .f32) (x1 : Vec Ideal S35x64 .f32) (x2 : Vec Ideal S1x64 .f32) (x3 : Vec Ideal S64x64 .f32)
    (x4 : Vec Ideal S1x64 .f32) (x5 : Vec Ideal S64x4 .f32) (x6 : Vec Ideal S1x4 .f32) :
    k0_pay1 (F := Ideal) x0 x1 x2 x3 x4 x5 x6 = blkHead (blkOut (blk2 (blk1 x0 x1 x2) x3 x4) x5 x6) := rfl

theorem blk1_apply (x0 x1 x2) (p : Fin 8192) (k : Fin 64) :
    blk1 x0 x1 x2 (ix2 p k) = Mlp.relu (Mlp.dense (fun a => x0 (ix2 p a)) (fun a n => x1 (ix2 a n)) (fun n => x2 (ix2 (0 : Fin 1) n)) k) := by
  unfold blk1
  rw [LibDense.relu_block_apply, shapeCast_self, LibDense.dense_block_apply dot_S8192x35_S35x64_S8192x64_1_0_0_1_n_n rfl]

theorem blk2_apply (g x3 x4) (p : Fin 8192) (k : Fin 64) :
    blk2 g x3 x4 (ix2 p k) = Mlp.relu (Mlp.dense (fun a => g (ix2 p a)) (fun a n => x3 (ix2 a n)) (fun n => x4 (ix2 (0 : Fin 1) n)) k) := by
  unfold blk2
  rw [LibDense.relu_block_apply, LibDense.dense_block_apply dot_S8192x64_S64x64_S8192x64_1_0_0_1_n_n rfl]

theorem blkOut_apply (g x5 x6) (p : Fin 8192) (j : Fin 4) :
    blkOut g x5 x6 (ix2 p j) = Mlp.dense (fun a => g (ix2 p a)) (fun a n => x5 (ix2 a n)) (fun n => x6 (ix2 (0 : Fin 1) n)) j := by
  unfold blkOut
  rw [LibDense.dense_block_apply dot_S8192x64_S64x4_S8192x4_1_0_0_1_n_n rfl]

/-- The stored block at row p, column q: column q's last step on output q. -/
theorem blkHead_apply (o : FVec Ideal S8192x4 .f32) (p : Fin 8192) (q : Fin 4) : blkHead o (ix2 p q) = Mlp.head (o (ix2 p q)) q := by
  unfold blkHead
  by_cases hq : q.val < 3
  · rw [Mlp.head_of_lt _ _ hq,
      concatenate_pair_apply_left (1 : Fin S8192x4.rank) _ _ concatenates_S8192x3_S8192x1_S8192x4_d1 (ix2 p q) rfl (ix2 p ⟨q.val, hq⟩) (fun b => by
        match b with
        | ⟨0, _⟩ => rfl
        | ⟨1, _⟩ => rfl)]
    show FloatOps.logistic (F := Ideal) (φ := .f32) _ = _
    rw [extractStridedSlice_apply ![0, 0] o slices_S8192x4_o0_0_S8192x3 (ix2 p ⟨q.val, hq⟩) (ix2 p q) (fun a => by
      match a with
      | ⟨0, _⟩ => show p.val = 0 + p.val; omega
      | ⟨1, _⟩ => show q.val = 0 + q.val; omega)]
    rfl
  · have h3 : q = (3 : Fin 4) := Fin.ext (by have := q.isLt; show q.val = 3; omega)
    subst h3
    rw [Mlp.head_three,
      concatenate_pair_apply_right (1 : Fin S8192x4.rank) _ _ concatenates_S8192x3_S8192x1_S8192x4_d1 (ix2 p (3 : Fin 4)) rfl rfl (ix2 p (0 : Fin 1))
        (fun b hb => by
          match b with
          | ⟨0, _⟩ => rfl
          | ⟨1, _⟩ => exact absurd rfl hb)
        (by rfl),
      LibDense.relu_block_apply,
      extractStridedSlice_apply ![0, 3] o slices_S8192x4_o0_3_S8192x1 (ix2 p (0 : Fin 1)) (ix2 p (3 : Fin 4)) (fun a => by
        match a with
        | ⟨0, _⟩ => show p.val = 0 + p.val; omega
        | ⟨1, _⟩ => rfl)]

/-- THE BODY AT AN ENTRY: row p, column q of the stored block. -/
theorem pay_apply (x0 : Vec Ideal S8192x35 .f32) (x1 : Vec Ideal S35x64 .f32) (x2 : Vec Ideal S1x64 .f32) (x3 : Vec Ideal S64x64 .f32)
    (x4 : Vec Ideal S1x64 .f32) (x5 : Vec Ideal S64x4 .f32) (x6 : Vec Ideal S1x4 .f32) (p : Fin 8192) (q : Fin 4) :
    k0_pay1 (F := Ideal) x0 x1 x2 x3 x4 x5 x6 (ix2 p q) = Mlp.head (rowNet x0 x1 x2 x3 x4 x5 x6 p q) q := by
  rw [pay_eq, blkHead_apply, blkOut_apply]
  unfold rowNet Mlp.net
  simp only [blk2_apply, blk1_apply]

end Cert.KernelIdeal.Hand

end
-- ==== Proof.KernelValue.lean ====
/-
  What the kernel's program leaves in its two results. The region's output array [2097152, 4] is written back in 256
  blocks of 8192 rows; point t loads rows 8192 t … 8192 t + 8191 of the feature array and the six parameter arrays
  whole, and stores the body's block, which row by row is the one-row network finished column by column. So the
  array ends as ONE function of the feature array and the parameters: row r is the network on feature row r. The two
  results are then cut from it by the host: columns 0, 1, 2, and column 3.
-/
import proofs.«154115_j44495861186617_1_alg».proof.Proof.Gen.KernelIdeal.Frame
import proofs.«154115_j44495861186617_1_alg».proof.Proof.FeatK
import proofs.«154115_j44495861186617_1_alg».proof.Proof.Body
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx Cert.Proof
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The region's output array after the run: row r, column q is column q's last step on output q of the network on
    feature row r, the bias rows read at their only row. -/
def G (h : FVec Ideal S2097152x35 .f32) (W0 : FVec Ideal S35x64 .f32) (b0 : FVec Ideal S1x64 .f32) (W1 : FVec Ideal S64x64 .f32)
    (b1 : FVec Ideal S1x64 .f32) (W2 : FVec Ideal S64x4 .f32) (b2 : FVec Ideal S1x4 .f32) : FVec Ideal S2097152x4 .f32 := fun i =>
  Mlp.head (Mlp.net (fun a => h (ix2 (i 0) a)) (fun a n => W0 (ix2 a n)) (fun n => b0 (ix2 (0 : Fin 1) n)) (fun a n => W1 (ix2 a n))
    (fun n => b1 (ix2 (0 : Fin 1) n)) (fun a n => W2 (ix2 a n)) (fun n => b2 (ix2 (0 : Fin 1) n)) (i 1)) (i 1)

/-- The printed index maps, decided once over the grid: the feature window and the output window sit at block (t, 0),
    the six parameter windows at block (0, 0). -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The feature window's block at point t is rows 8192 t … of the array the region finds. -/
theorem iblk0_apply (c : Dev nD) (t : Fin cfg0.N) (p : Fin 8192) (a : Fin 35) (r : Fin 2097152) (hr : r.val = 8192 * t.val + p.val) :
    (iblk m c 0 t : Vec Ideal S8192x35 .f32) (ix2 p a) = (V m c main_v31 : FVec Ideal S2097152x35 .f32) (ix2 r a) := by
  obtain ⟨e0, e1, -⟩ := idx_facts t
  unfold iblk
  rw [View.read_apply]
  show V m c main_v31 _ = V m c main_v31 _
  congr 1
  funext d
  apply Fin.ext
  match d with
  | ⟨0, _⟩ => show win0_0.index t 0 * 8192 + 1 * p.val = r.val; rw [e0, hr]; omega
  | ⟨1, _⟩ => show win0_0.index t 1 * 35 + 1 * a.val = a.val; rw [e1]; omega

/-- A parameter window's block is its whole array: its index map is constantly (0, 0) and its block is the array's shape. -/
theorem iblk1_eq (c : Dev nD) (t : Fin cfg0.N) : (iblk m c 1 t : Vec Ideal S35x64 .f32) = V m c main_arg3 := by
  obtain ⟨-, -, -, -, e0, e1, -⟩ := idx_facts t
  unfold iblk; funext y; rw [View.read_apply]
  show V m c main_arg3 _ = V m c main_arg3 y
  congr 1; funext d; apply Fin.ext
  match d with
  | ⟨0, _⟩ => show win0_1.index t 0 * 35 + 1 * (y 0).val = (y 0).val; rw [e0]; omega
  | ⟨1, _⟩ => show win0_1.index t 1 * 64 + 1 * (y 1).val = (y 1).val; rw [e1]; omega
theorem iblk2_eq (c : Dev nD) (t : Fin cfg0.N) : (iblk m c 2 t : Vec Ideal S1x64 .f32) = V m c main_v32 := by
  obtain ⟨-, -, -, -, -, -, e0, e1, -⟩ := idx_facts t
  unfold iblk; funext y; rw [View.read_apply]
  show V m c main_v32 _ = V m c main_v32 y
  congr 1; funext d; apply Fin.ext
  match d with
  | ⟨0, _⟩ => show win0_2.index t 0 * 1 + 1 * (y 0).val = (y 0).val; rw [e0]; omega
  | ⟨1, _⟩ => show win0_2.index t 1 * 64 + 1 * (y 1).val = (y 1).val; rw [e1]; omega
theorem iblk3_eq (c : Dev nD) (t : Fin cfg0.N) : (iblk m c 3 t : Vec Ideal S64x64 .f32) = V m c main_arg5 := by
  obtain ⟨-, -, -, -, -, -, -, -, e0, e1, -⟩ := idx_facts t
  unfold iblk; funext y; rw [View.read_apply]
  show V m c main_arg5 _ = V m c main_arg5 y
  congr 1; funext d; apply Fin.ext
  match d with
  | ⟨0, _⟩ => show win0_3.index t 0 * 64 + 1 * (y 0).val = (y 0).val; rw [e0]; omega
  | ⟨1, _⟩ => show win0_3.index t 1 * 64 + 1 * (y 1).val = (y 1).val; rw [e1]; omega
theorem iblk4_eq (c : Dev nD) (t : Fin cfg0.N) : (iblk m c 4 t : Vec Ideal S1x64 .f32) = V m c main_v33 := by
  obtain ⟨-, -, -, -, -, -, -, -, -, -, e0, e1, -⟩ := idx_facts t
  unfold iblk; funext y; rw [View.read_apply]
  show V m c main_v33 _ = V m c main_v33 y
  congr 1; funext d; apply Fin.ext
  match d with
  | ⟨0, _⟩ => show win0_4.index t 0 * 1 + 1 * (y 0).val = (y 0).val; rw [e0]; omega
  | ⟨1, _⟩ => show win0_4.index t 1 * 64 + 1 * (y 1).val = (y 1).val; rw [e1]; omega
theorem iblk5_eq (c : Dev nD) (t : Fin cfg0.N) : (iblk m c 5 t : Vec Ideal S64x4 .f32) = V m c main_arg7 := by
  obtain ⟨-, -, -, -, -, -, -, -, -, -, -, -, e0, e1, -⟩ := idx_facts t
  unfold iblk; funext y; rw [View.read_apply]
  show V m c main_arg7 _ = V m c main_arg7 y
  congr 1; funext d; apply Fin.ext
  match d with
  | ⟨0, _⟩ => show win0_5.index t 0 * 64 + 1 * (y 0).val = (y 0).val; rw [e0]; omega
  | ⟨1, _⟩ => show win0_5.index t 1 * 4 + 1 * (y 1).val = (y 1).val; rw [e1]; omega
theorem iblk6_eq (c : Dev nD) (t : Fin cfg0.N) : (iblk m c 6 t : Vec Ideal S1x4 .f32) = V m c main_v34 := by
  obtain ⟨-, -, -, -, -, -, -, -, -, -, -, -, -, -, e0, e1⟩ := idx_facts t
  unfold iblk; funext y; rw [View.read_apply]
  show V m c main_v34 _ = V m c main_v34 y
  congr 1; funext d; apply Fin.ext
  match d with
  | ⟨0, _⟩ => show win0_6.index t 0 * 1 + 1 * (y 0).val = (y 0).val; rw [e0]; omega
  | ⟨1, _⟩ => show win0_6.index t 1 * 4 + 1 * (y 1).val = (y 1).val; rw [e1]; omega

/-- The body's stored block at an index y: column (y 1)'s last step on the network on the block's row (y 0). -/
theorem pay_at (x0 : Vec Ideal S8192x35 .f32) (x1 : Vec Ideal S35x64 .f32) (x2 : Vec Ideal S1x64 .f32) (x3 : Vec Ideal S64x64 .f32)
    (x4 : Vec Ideal S1x64 .f32) (x5 : Vec Ideal S64x4 .f32) (x6 : Vec Ideal S1x4 .f32) (y : S8192x4.Idx) :
    k0_pay1 (F := Ideal) x0 x1 x2 x3 x4 x5 x6 y = Mlp.head (rowNet x0 x1 x2 x3 x4 x5 x6 (y 0) (y 1)) (y 1) := by
  exact (congrArg (k0_pay1 (F := Ideal) x0 x1 x2 x3 x4 x5 x6) (eq_ix2 y)).trans (pay_apply x0 x1 x2 x3 x4 x5 x6 (y 0) (y 1))

/-- The array the output window ends at, in terms of what the region finds. -/
abbrev GV (c : Dev nD) : FVec Ideal S2097152x4 .f32 :=
  G (V m c main_v31) (V m c main_arg3) (V m c main_v32) (V m c main_arg5) (V m c main_v33) (V m c main_arg7) (V m c main_v34)

/-- WHAT POINT t WRITES BACK is block t of that array. -/
theorem flushed_eq (c : Dev nD) (t : Fin cfg0.N) :
    (dats m 0 c).flushed 7 t = ((cfg0.win 7).blk t).view.read (Elt Ideal) (GV m c) := by
  show (cfg0.win 7).cut (grid0.coords t) ((dats m 0 c).after 7 t) = _
  rw [after0_7]
  unfold out0_7
  rw [View.canon_unit_zero hz]
  simp only [View.ld_unit_zero (S := S8192x35) hz, View.ld_unit_zero (S := S35x64) hz, View.ld_unit_zero (S := S1x64) hz,
    View.ld_unit_zero (S := S64x64) hz, View.ld_unit_zero (S := S64x4) hz, View.ld_unit_zero (S := S1x4) hz]
  rw [iblk1_eq, iblk2_eq, iblk3_eq, iblk4_eq, iblk5_eq, iblk6_eq]
  obtain ⟨-, -, e0, e1, -⟩ := idx_facts t
  funext j
  show k0_pay1 (F := Ideal) (iblk m c 0 t) (V m c main_arg3) (V m c main_v32) (V m c main_arg5) (V m c main_v33) (V m c main_arg7) (V m c main_v34)
      (win0_7.xinj (grid0.coords t) j) = GV m c (((cfg0.win 7).blk t).view.emb j)
  rw [pay_at]
  have h1 : (((cfg0.win 7).blk t).view.emb j) 1 = (win0_7.xinj (grid0.coords t) j) 1 :=
    Fin.ext (by show win0_7.index t 1 * 4 + 1 * (j 1).val = (j 1).val; rw [e1]; omega)
  show Mlp.head (Mlp.net _ _ _ _ _ _ _ _) _ = Mlp.head (Mlp.net _ _ _ _ _ _ _ ((((cfg0.win 7).blk t).view.emb j) 1)) ((((cfg0.win 7).blk t).view.emb j) 1)
  rw [h1]
  congr 2
  funext a
  exact iblk0_apply m c t _ a _ (by show win0_7.index t 0 * 8192 + 1 * (j 0).val = 8192 * t.val + (j 0).val; rw [e0]; omega)

/-- An index of the output array is in point t's block iff each coordinate is in the block's range on its axis. -/
theorem mem_blk (t : Fin cfg0.N) (i : S2097152x4.Idx) :
    i ∈ ((cfg0.win 7).blk t).view.set ↔ ∀ a : Fin 2, win0_7.index t a * S8192x4.size a ≤ (i a).val ∧ (i a).val < win0_7.index t a * S8192x4.size a + S8192x4.size a := by
  show i ∈ ((View.whole main_v35).slice (win0_7.rect t)).set ↔ _
  rw [View.set_slice_whole, Rect.mem_set_unit]
  exact Iff.rfl

/-- Every index of the output array lies in the block of the point its row divided by 8192 names. -/
theorem cover (i : S2097152x4.Idx) : ∃ t : Fin cfg0.N, (cfg0.win 7).flush t = true ∧ i ∈ ((cfg0.win 7).blk t).view.set := by
  have hi0 : (i 0).val < 2097152 := (i 0).isLt
  have hi1 : (i 1).val < 4 := (i 1).isLt
  have hN : cfg0.N = 256 := N_0
  have hlt : (i 0).val / 8192 < cfg0.N := by rw [hN]; omega
  obtain ⟨-, -, e0, e1, -⟩ := idx_facts ⟨(i 0).val / 8192, hlt⟩
  refine ⟨⟨(i 0).val / 8192, hlt⟩, flush0_7 _, ?_⟩
  rw [mem_blk]
  intro a
  match a with
  | ⟨0, _⟩ =>
    show win0_7.index ⟨(i 0).val / 8192, hlt⟩ 0 * 8192 ≤ (i 0).val ∧ (i 0).val < win0_7.index ⟨(i 0).val / 8192, hlt⟩ 0 * 8192 + 8192
    rw [e0]
    show (i 0).val / 8192 * 8192 ≤ (i 0).val ∧ (i 0).val < (i 0).val / 8192 * 8192 + 8192
    omega
  | ⟨1, _⟩ =>
    show win0_7.index ⟨(i 0).val / 8192, hlt⟩ 1 * 4 ≤ (i 1).val ∧ (i 1).val < win0_7.index ⟨(i 0).val / 8192, hlt⟩ 1 * 4 + 4
    rw [e1]
    omega

/-- THE OUTPUT ARRAY after the run. -/
theorem final (c : Dev nD) : (dats m 0 c).arrAt 7 cfg0.N = GV m c :=
  (dats m 0 c).arrAt_eq_of_cover 7 (GV m c) (fun t _ => flushed_eq m c t) cover

/-! ## The three bias rows the region finds: the argument vectors reshaped to one row -/

theorem bias_rows (c : Dev nD) :
    V m c main_v32 = shapeCast S1x64 (m ((c : Thread nD τ).loc main_arg4)) shapeCasts_S64_S1x64
    ∧ V m c main_v33 = shapeCast S1x64 (m ((c : Thread nD τ).loc main_arg6)) shapeCasts_S64_S1x64
    ∧ V m c main_v34 = shapeCast S1x4 (m ((c : Thread nD τ).loc main_arg8)) shapeCasts_S4_S1x4 := by
  refine ⟨?_, ?_, ?_⟩ <;>
  · dsimp only [Gen.V, Gen.V0]
    simp only [hostOps0, hostOps0_1, hostOps0_2, List.flatten_cons, List.flatten_nil, List.append_nil, List.cons_append, List.nil_append]
    after_results_simp
    rfl

/-- Entry (0, q) of a vector reshaped to one row is the vector's entry q. -/
theorem row_entry {n : Nat} (x : FVec Ideal ⟨1, ![n]⟩ .f32) (h : (⟨1, ![n]⟩ : Shape).ShapeCasts ⟨2, ![1, n]⟩) (q : Fin n) :
    shapeCast ⟨2, ![1, n]⟩ x h (ix2 (0 : Fin 1) q) = x (ix1 q) :=
  shapeCast_apply x h (ix2 (0 : Fin 1) q) (ix1 q) (by
    rw [Shape.rowMajor_val_two, Shape.rowMajor_val_one]
    show q.val = 0 * n + q.val
    omega)

/-! ## The host's two slices after the region, and the run -/

/-- The first result: columns 0, 1, 2 of the output array. -/
abbrev rgbK (c : Dev nD) : FVec Ideal S2097152x3 .f32 := extractStridedSlice S2097152x3 ![0, 0] (GV m c) slices_S2097152x4_S2097152x3_0_0
/-- The second result: column 3. -/
abbrev sigmaK (c : Dev nD) : FVec Ideal S2097152x1 .f32 := extractStridedSlice S2097152x1 ![0, 3] (GV m c) slices_S2097152x4_S2097152x1_0_3

theorem tail_rgb (c : Dev nD) : Pipeline.afterTail₀ cfgs (dats m) 0 (V0 m) [hostOps1] c main_v36 = rgbK m c := by
  unfold Pipeline.afterTail₀
  show StableHlo.after hostOps1 _ (Proc.devRef .tc main_v36) = _
  after_results
  exact congrArg (fun A => extractStridedSlice S2097152x3 ![0, 0] A slices_S2097152x4_S2097152x3_0_0)
    ((Pipeline.withArrays_arr spec0 launch0.win.arr_inj c (V0 m c) (fun w => (dats m 0 c).arrAt w cfg0.N) 7).trans (final m c))

theorem tail_sigma (c : Dev nD) : Pipeline.afterTail₀ cfgs (dats m) 0 (V0 m) [hostOps1] c main_v37 = sigmaK m c := by
  unfold Pipeline.afterTail₀
  show StableHlo.after hostOps1 _ (Proc.devRef .tc main_v37) = _
  after_results
  exact congrArg (fun A => extractStridedSlice S2097152x1 ![0, 3] A slices_S2097152x4_S2097152x1_0_3)
    ((Pipeline.withArrays_arr spec0 launch0.win.arr_inj c (V0 m c) (fun w => (dats m 0 c).arrAt w cfg0.N) 7).trans (final m c))

/-- THE RUN, READ: both results named, the nine arguments as launched. -/
theorem run : θ_run defs (onTc (τ := τ) (main (F := Ideal))) ⟨m, fun _ => 0, ρ⟩ fun r => ∀ c : Dev nD,
      r.2.mem ((c.tc : Thread nD τ).loc main_v36) = rgbK m c
      ∧ r.2.mem ((c.tc : Thread nD τ).loc main_v37) = sigmaK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v36 (Pipeline.mem_restRefs_of main_v36 (by decide) (by decide))).trans (tail_rgb m c),
      ((h c).2 main_v37 (Pipeline.mem_restRefs_of main_v37 (by decide) (by decide))).trans (tail_sigma m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c),
      ((h c).1 5).trans (((dats m 0 c).arrAt_in 5 rfl _).trans ((A_eq m c 5).trans (V_main_arg7 m c))),
      ((h c).2 main_arg8 (Pipeline.mem_restRefs_of main_arg8 (by decide) (by decide))).trans (W_main_arg8 m (dats m) c)⟩)
    (run_main m ρ)

end Cert.KernelIdeal.Hand

end
-- ==== Proof.RefOps.lean ====
/- The reference program's @main as the list of its 90 host operations, in order, each spelled as the printed program
   spells it, a called function's operations written out at the call over that call's buffers. Cut after the operation
   that writes the feature array: pre (59 operations) computes it, mlp (31) is the network on it. With each list, the tuple of the
   library's <arity>_bufs_sub lemmas, one per operation by its arity: every operation touches TensorCore buffers only. -/
import proofs.«154115_j44495861186617_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations up to the feature array. -/
abbrev pre : List (HloOp τ sig (Elt F)) :=
  [ StableHlo.nullary main_cst (fun i => FloatOps.ofBits .f32 (lit0 (S16.rowMajor i))),
    StableHlo.unary main_arg0 main_v0 (broadcastInDim S1x2097152x3 ![1, 2] bcast_S2097152x3_S1x2097152x3_1_2 : (⟨S2097152x3, .f32⟩ : BufTy).Contents (Elt F) → (⟨S1x2097152x3, .f32⟩ : BufTy).Contents (Elt F)),
    StableHlo.unary main_cst main_v1 (broadcastInDim S16x1x1 ![0] bcast_S16_S16x1x1_0 : (⟨S16, .f32⟩ : BufTy).Contents (Elt F) → (⟨S16x1x1, .f32⟩ : BufTy).Contents (Elt F)),
    StableHlo.unary main_v0 main_v2 (broadcastInDim S16x2097152x3 ![0, 1, 2] bcast_S1x2097152x3_S16x2097152x3_0_1_2 : (⟨S1x2097152x3, .f32⟩ : BufTy).Contents (Elt F) → (⟨S16x2097152x3, .f32⟩ : BufTy).Contents (Elt F)),
    StableHlo.unary main_v1 main_v3 (broadcastInDim S16x2097152x3 ![0, 1, 2] bcast_S16x1x1_S16x2097152x3_0_1_2 : (⟨S16x1x1, .f32⟩ : BufTy).Contents (Elt F) → (⟨S16x2097152x3, .f32⟩ : BufTy).Contents (Elt F)),
    StableHlo.binary main_v2 main_v3 main_v4 (mulf : (⟨S16x2097152x3, .f32⟩ : BufTy).Contents (Elt F) → (⟨S16x2097152x3, .f32⟩ : BufTy).Contents (Elt F) → (⟨S16x2097152x3, .f32⟩ : BufTy).Contents (Elt F)),
    StableHlo.unary main_v4 main_v5 (Host.floor : (⟨S16x2097152x3, .f32⟩ : BufTy).Contents (Elt F) → (⟨S16x2097152x3, .f32⟩ : BufTy).Contents (Elt F)),
    StableHlo.unary main_v5 main_v6 (fptosi 32 : (⟨S16x2097152x3, .f32⟩ : BufTy).Contents (Elt F) → (⟨S16x2097152x3, .i32⟩ : BufTy).Contents (Elt F)),
    StableHlo.unary main_v6 main_v7 ((extractStridedSlice S16x2097152x1 ![0, 0, 0] · slices_S16x2097152x3_S16x2097152x1_0_0_0) : (⟨S16x2097152x3, .i32⟩ : BufTy).Contents (Elt F) → (⟨S16x2097152x1, .i32⟩ : BufTy).Contents (Elt F)),
    StableHlo.reshape main_v7 main_v8 rfl shapeCasts_S16x2097152x1_S16x2097152,
    StableHlo.nullary main_c (constantI S_ 32 73856093#32),
    StableHlo.unary main_c main_v9 (broadcastInDim S16x2097152 ![] bcast_S_S16x2097152 : (⟨S_, .i32⟩ : BufTy).Contents (Elt F) → (⟨S16x2097152, .i32⟩ : BufTy).Contents (Elt F)),
    StableHlo.binary main_v8 main_v9 main_v10 (muli : (⟨S16x2097152, .i32⟩ : BufTy).Contents (Elt F) → (⟨S16x2097152, .i32⟩ : BufTy).Contents (Elt F) → (⟨S16x2097152, .i32⟩ : BufTy).Contents (Elt F)),
    StableHlo.unary main_v6 main_v11 ((extractStridedSlice S16x2097152x1 ![0, 0, 1] · slices_S16x2097152x3_S16x2097152x1_0_0_1) : (⟨S16x2097152x3, .i32⟩ : BufTy).Contents (Elt F) → (⟨S16x2097152x1, .i32⟩ : BufTy).Contents (Elt F)),
    StableHlo.reshape main_v11 main_v12 rfl shapeCasts_S16x2097152x1_S16x2097152,
    StableHlo.nullary main_c_0 (constantI S_ 32 19349663#32),
    StableHlo.unary main_c_0 main_v13 (broadcastInDim S16x2097152 ![] bcast_S_S16x2097152 : (⟨S_, .i32⟩ : BufTy).Contents (Elt F) → (⟨S16x2097152, .i32⟩ : BufTy).Contents (Elt F)),
    StableHlo.binary main_v12 main_v13 main_v14 (muli : (⟨S16x2097152, .i32⟩ : BufTy).Contents (Elt F) → (⟨S16x2097152, .i32⟩ : BufTy).Contents (Elt F) → (⟨S16x2097152, .i32⟩ : BufTy).Contents (Elt F)),
    StableHlo.binary main_v10 main_v14 main_v15 (xori : (⟨S16x2097152, .i32⟩ : BufTy).Contents (Elt F) → (⟨S16x2097152, .i32⟩ : BufTy).Contents (Elt F) → (⟨S16x2097152, .i32⟩ : BufTy).Contents (Elt F)),
    StableHlo.unary main_v6 main_v16 ((extractStridedSlice S16x2097152x1 ![0, 0, 2] · slices_S16x2097152x3_S16x2097152x1_0_0_2) : (⟨S16x2097152x3, .i32⟩ : BufTy).Contents (Elt F) → (⟨S16x2097152x1, .i32⟩ : BufTy).Contents (Elt F)),
    StableHlo.reshape main_v16 main_v17 rfl shapeCasts_S16x2097152x1_S16x2097152,
    StableHlo.nullary main_c_1 (constantI S_ 32 83492791#32),
    StableHlo.unary main_c_1 main_v18 (broadcastInDim S16x2097152 ![] bcast_S_S16x2097152 : (⟨S_, .i32⟩ : BufTy).Contents (Elt F) → (⟨S16x2097152, .i32⟩ : BufTy).Contents (Elt F)),
    StableHlo.binary main_v17 main_v18 main_v19 (muli : (⟨S16x2097152, .i32⟩ : BufTy).Contents (Elt F) → (⟨S16x2097152, .i32⟩ : BufTy).Contents (Elt F) → (⟨S16x2097152, .i32⟩ : BufTy).Contents (Elt F)),
    StableHlo.binary main_v15 main_v19 main_v20 (xori : (⟨S16x2097152, .i32⟩ : BufTy).Contents (Elt F) → (⟨S16x2097152, .i32⟩ : BufTy).Contents (Elt F) → (⟨S16x2097152, .i32⟩ : BufTy).Contents (Elt F)),
    StableHlo.nullary main_c_2 (constantI S_ 32 524288#32),
    StableHlo.TRef.unary (.of main_c_2) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S16x2097152 ![] bcast_S_S16x2097152),
    StableHlo.TRef.binary (.of main_v20) main_call0.v3 main_call0.v4 Host.remsi,
    StableHlo.TRef.nullary main_call0.c_1 (constantI S_ 32 0#32),
    StableHlo.TRef.unary main_call0.c_1 main_call0.v5 (broadcastInDim S16x2097152 ![] bcast_S_S16x2097152),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S16x2097152 ![] bcast_S_S16x2097152),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S16x2097152 ![] bcast_S_S16x2097152),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S16x2097152 ![] bcast_S_S16x2097152),
    StableHlo.TRef.binary main_call0.v4 main_call0.v13 main_call0.v14 addi,
    StableHlo.TRef.ternary main_call0.v12 main_call0.v14 main_call0.v4 main_call0.v15 select,
    StableHlo.nullary main_c_3 (constantI S_ 32 0#32),
    StableHlo.unary main_c_3 main_v22 (broadcastInDim S16x2097152 ![] bcast_S_S16x2097152 : (⟨S_, .i32⟩ : BufTy).Contents (Elt F) → (⟨S16x2097152, .i32⟩ : BufTy).Contents (Elt F)),
    StableHlo.binary main_v21 main_v22 main_v23 (cmpi .slt : (⟨S16x2097152, .i32⟩ : BufTy).Contents (Elt F) → (⟨S16x2097152, .i32⟩ : BufTy).Contents (Elt F) → (⟨S16x2097152, .i1⟩ : BufTy).Contents (Elt F)),
    StableHlo.nullary main_c_4 (constantI S_ 32 524288#32),
    StableHlo.unary main_c_4 main_v24 (broadcastInDim S16x2097152 ![] bcast_S_S16x2097152 : (⟨S_, .i32⟩ : BufTy).Contents (Elt F) → (⟨S16x2097152, .i32⟩ : BufTy).Contents (Elt F)),
    StableHlo.binary main_v21 main_v24 main_v25 (addi : (⟨S16x2097152, .i32⟩ : BufTy).Contents (Elt F) → (⟨S16x2097152, .i32⟩ : BufTy).Contents (Elt F) → (⟨S16x2097152, .i32⟩ : BufTy).Contents (Elt F)),
    StableHlo.ternary main_v23 main_v25 main_v21 main_v26 (select : (⟨S16x2097152, .i1⟩ : BufTy).Contents (Elt F) → (⟨S16x2097152, .i32⟩ : BufTy).Contents (Elt F) → (⟨S16x2097152, .i32⟩ : BufTy).Contents (Elt F) → (⟨S16x2097152, .i32⟩ : BufTy).Contents (Elt F)),
    StableHlo.unary main_v26 main_v27 (broadcastInDim S16x2097152x1 ![0, 1] bcast_S16x2097152_S16x2097152x1_0_1 : (⟨S16x2097152, .i32⟩ : BufTy).Contents (Elt F) → (⟨S16x2097152x1, .i32⟩ : BufTy).Contents (Elt F)),
    StableHlo.binary main_arg2 main_v27 main_v28 ((fun x i => Host.gather gather_S16x524288x2_S16x2097152x1_S16x2097152x2_2_1_0_0_1_2_112 x i) : (⟨S16x524288x2, .f32⟩ : BufTy).Contents (Elt F) → (⟨S16x2097152x1, .i32⟩ : BufTy).Contents (Elt F) → (⟨S16x2097152x2, .f32⟩ : BufTy).Contents (Elt F)),
    StableHlo.unary main_v28 main_v29 ((transpose S2097152x16x2 [1, 0, 2] · transposes_S16x2097152x2_S2097152x16x2_1_0_2) : (⟨S16x2097152x2, .f32⟩ : BufTy).Contents (Elt F) → (⟨S2097152x16x2, .f32⟩ : BufTy).Contents (Elt F)),
    StableHlo.reshape main_v29 main_v30 rfl shapeCasts_S2097152x16x2_S2097152x32,
    StableHlo.binary main_v30 main_arg1 main_v31 ((fun a b => concatenate S2097152x35 1 [⟨S2097152x32, a⟩, ⟨S2097152x3, b⟩] concatenates_S2097152x32_S2097152x3_S2097152x35_d1) : (⟨S2097152x32, .f32⟩ : BufTy).Contents (Elt F) → (⟨S2097152x3, .f32⟩ : BufTy).Contents (Elt F) → (⟨S2097152x35, .f32⟩ : BufTy).Contents (Elt F)) ]

theorem pre_sub : (pre : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub ..⟩

/-- The network's operations, on the feature array. -/
abbrev mlp : List (HloOp τ sig (Elt F)) :=
  [ StableHlo.binary main_v31 main_arg3 main_v32 ((fun l r => Host.dotGeneral dot_S2097152x35_S35x64_S2097152x64_1_0_0_1_n_n none l r) : (⟨S2097152x35, .f32⟩ : BufTy).Contents (Elt F) → (⟨S35x64, .f32⟩ : BufTy).Contents (Elt F) → (⟨S2097152x64, .f32⟩ : BufTy).Contents (Elt F)),
    StableHlo.unary main_arg4 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S2097152x64 ![0, 1] bcast_S1x64_S2097152x64_0_1 : (⟨S1x64, .f32⟩ : BufTy).Contents (Elt F) → (⟨S2097152x64, .f32⟩ : BufTy).Contents (Elt F)),
    StableHlo.binary main_v32 main_v34 main_v35 (addf : (⟨S2097152x64, .f32⟩ : BufTy).Contents (Elt F) → (⟨S2097152x64, .f32⟩ : BufTy).Contents (Elt F) → (⟨S2097152x64, .f32⟩ : BufTy).Contents (Elt F)),
    StableHlo.TRef.nullary main_call1.cst (constant S_ .f32 0x00000000#32),
    StableHlo.TRef.unary main_call1.cst main_call1.v0 (broadcastInDim S2097152x64 ![] bcast_S_S2097152x64),
    StableHlo.TRef.binary (.of main_v35) main_call1.v0 main_call1.v1 maximumf,
    StableHlo.binary main_v36 main_arg5 main_v37 ((fun l r => Host.dotGeneral dot_S2097152x64_S64x64_S2097152x64_1_0_0_1_n_n none l r) : (⟨S2097152x64, .f32⟩ : BufTy).Contents (Elt F) → (⟨S64x64, .f32⟩ : BufTy).Contents (Elt F) → (⟨S2097152x64, .f32⟩ : BufTy).Contents (Elt F)),
    StableHlo.unary main_arg6 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S2097152x64 ![0, 1] bcast_S1x64_S2097152x64_0_1 : (⟨S1x64, .f32⟩ : BufTy).Contents (Elt F) → (⟨S2097152x64, .f32⟩ : BufTy).Contents (Elt F)),
    StableHlo.binary main_v37 main_v39 main_v40 (addf : (⟨S2097152x64, .f32⟩ : BufTy).Contents (Elt F) → (⟨S2097152x64, .f32⟩ : BufTy).Contents (Elt F) → (⟨S2097152x64, .f32⟩ : BufTy).Contents (Elt F)),
    StableHlo.TRef.nullary main_call2.cst (constant S_ .f32 0x00000000#32),
    StableHlo.TRef.unary main_call2.cst main_call2.v0 (broadcastInDim S2097152x64 ![] bcast_S_S2097152x64),
    StableHlo.TRef.binary (.of main_v40) main_call2.v0 main_call2.v1 maximumf,
    StableHlo.binary main_v41 main_arg7 main_v42 ((fun l r => Host.dotGeneral dot_S2097152x64_S64x4_S2097152x4_1_0_0_1_n_n none l r) : (⟨S2097152x64, .f32⟩ : BufTy).Contents (Elt F) → (⟨S64x4, .f32⟩ : BufTy).Contents (Elt F) → (⟨S2097152x4, .f32⟩ : BufTy).Contents (Elt F)),
    StableHlo.unary main_arg8 main_v43 (broadcastInDim S1x4 ![1] bcast_S4_S1x4_1 : (⟨S4, .f32⟩ : BufTy).Contents (Elt F) → (⟨S1x4, .f32⟩ : BufTy).Contents (Elt F)),
    StableHlo.unary main_v43 main_v44 (broadcastInDim S2097152x4 ![0, 1] bcast_S1x4_S2097152x4_0_1 : (⟨S1x4, .f32⟩ : BufTy).Contents (Elt F) → (⟨S2097152x4, .f32⟩ : BufTy).Contents (Elt F)),
    StableHlo.binary main_v42 main_v44 main_v45 (addf : (⟨S2097152x4, .f32⟩ : BufTy).Contents (Elt F) → (⟨S2097152x4, .f32⟩ : BufTy).Contents (Elt F) → (⟨S2097152x4, .f32⟩ : BufTy).Contents (Elt F)),
    StableHlo.unary main_v45 main_v46 ((extractStridedSlice S2097152x3 ![0, 0] · slices_S2097152x4_S2097152x3_0_0) : (⟨S2097152x4, .f32⟩ : BufTy).Contents (Elt F) → (⟨S2097152x3, .f32⟩ : BufTy).Contents (Elt F)),
    StableHlo.unary main_v46 main_v47 (Host.negf : (⟨S2097152x3, .f32⟩ : BufTy).Contents (Elt F) → (⟨S2097152x3, .f32⟩ : BufTy).Contents (Elt F)),
    StableHlo.unary main_v47 main_v48 (Host.exp : (⟨S2097152x3, .f32⟩ : BufTy).Contents (Elt F) → (⟨S2097152x3, .f32⟩ : BufTy).Contents (Elt F)),
    StableHlo.nullary main_cst_5 (constant S_ .f32 0x3F800000#32),
    StableHlo.unary main_cst_5 main_v49 (broadcastInDim S2097152x3 ![] bcast_S_S2097152x3 : (⟨S_, .f32⟩ : BufTy).Contents (Elt F) → (⟨S2097152x3, .f32⟩ : BufTy).Contents (Elt F)),
    StableHlo.binary main_v49 main_v48 main_v50 (addf : (⟨S2097152x3, .f32⟩ : BufTy).Contents (Elt F) → (⟨S2097152x3, .f32⟩ : BufTy).Contents (Elt F) → (⟨S2097152x3, .f32⟩ : BufTy).Contents (Elt F)),
    StableHlo.nullary main_cst_6 (constant S_ .f32 0x3F800000#32),
    StableHlo.unary main_cst_6 main_v51 (broadcastInDim S2097152x3 ![] bcast_S_S2097152x3 : (⟨S_, .f32⟩ : BufTy).Contents (Elt F) → (⟨S2097152x3, .f32⟩ : BufTy).Contents (Elt F)),
    StableHlo.binary main_v51 main_v50 main_v52 (Host.divf : (⟨S2097152x3, .f32⟩ : BufTy).Contents (Elt F) → (⟨S2097152x3, .f32⟩ : BufTy).Contents (Elt F) → (⟨S2097152x3, .f32⟩ : BufTy).Contents (Elt F)),
    StableHlo.unary main_v45 main_v53 ((extractStridedSlice S2097152x1 ![0, 3] · slices_S2097152x4_S2097152x1_0_3) : (⟨S2097152x4, .f32⟩ : BufTy).Contents (Elt F) → (⟨S2097152x1, .f32⟩ : BufTy).Contents (Elt F)),
    StableHlo.TRef.nullary main_call3.cst (constant S_ .f32 0x00000000#32),
    StableHlo.TRef.unary main_call3.cst main_call3.v0 (broadcastInDim S2097152x1 ![] bcast_S_S2097152x1),
    StableHlo.TRef.binary (.of main_v53) main_call3.v0 main_call3.v1 maximumf ]

theorem mlp_sub : (mlp : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub ..⟩

end Cert.ReferenceIdeal.Hand

end
-- ==== Proof.RefRun.lean ====
/-
  The reference program's run, read back. Its @main is a straight line of 90 host operations (the functions it calls
  written out at their calls), so every weakly fair execution ends with each buffer holding what folding those
  operations over the launch contents leaves there.
-/
import proofs.«154115_j44495861186617_1_alg».proof.Proof.RefOps
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- ninety binds re-associated: the rewriting under the chain recurses once per statement
set_option maxRecDepth 4096 in
set_option maxHeartbeats 4000000 in
/-- @main is that straight line: the called functions unfolded at their calls and the two windows of @main joined, both
    sides are one chain of operation steps once sequencing is re-associated. -/
theorem main_eq (c : Dev nD) : main (F := F) c = seq (pre ++ mlp) := by
  simp only [main, main_part0, main_part1, fn_remainder.body, fn_where.body, fn_relu.body, fn_relu_0.body, seq,
    pre, mlp, List.cons_append, List.nil_append, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : ((pre ++ mlp : List (HloOp τ sig (Elt F)))).Forall fun op => op.bufs ⊆ tcRefs τ sig :=
  List.forall_append.mpr ⟨pre_sub, mlp_sub⟩

/-- At the compiled mesh, from any memory with zero counters: every weakly fair execution of @main terminates, and every
    final state has each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (pre ++ mlp) (launchContents m c) (b : DevRef τ sig) :=
  run_seq scopedRefs_eq scopedSems_eq defs main (fun _ => pre ++ mlp) main_eq (fun _ => ops_sub) m ρ

end Cert.ReferenceIdeal.Hand

end
-- ==== Proof.FeatR.lean ====
/- Substitutions: Cert.KernelIdeal => Cert.ReferenceIdeal; (hostOps0_2.take 7) => (((pre.drop 26).drop 21).take 7); (hostOps0_2.drop 7) => (((pre.drop 26).drop 21).drop 7); simp only [hostOps0_2, List.take] => simp only [pre, List.take, List.drop]; simp only [hostOps0_2, List.drop] => simp only [pre, List.take, List.drop]; simp only [hostOps0, hostOps0_1, hostOps0_2, List.take] => simp only [pre, List.take, List.drop]; after hostOps0_1  => after ((pre.drop 26).take 21) ; simp only [hostOps0_1] => simp only [pre, List.take, List.drop]; after hostOps0  => after (pre.take 26) ; simp only [hostOps0] => simp only [pre, List.take, List.drop]; the closing theorem V_feat replaced by pre_feat (about the list pre).
   The shared host operations, on the reference program: the feature array as one function of the three argument arrays, read off
   the first 59 operations of @main in four stretches, each as a function of the arrays it is entered with. -/
import proofs.«154115_j44495861186617_1_alg».proof.Proof.RefOps
import Idealize.ShloMosaic.Lib.StableHlo.Run
import Idealize.ShloMosaic.PureOps.Ideal

-- the folds below recurse once per operation of a stretch and once per coordinate of the long axes
set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The feature array: the host operations both programs share, stage by stage

  Each point is scaled by sixteen level resolutions and rounded down to an integer grid cell; the cell's three
  coordinates are multiplied by three fixed odd numbers and combined bit by bit; the result is reduced modulo the
  table length 524288 to a non-negative remainder; the table row so named is looked up at every level, the sixteen
  two-entry rows laid side by side, and the point's three direction entries appended: 35 features per point.
  Every stage is a function of the array the stage before it produced. -/

abbrev I3 := (⟨S16x2097152x3, .i32⟩ : BufTy).Contents (Elt Ideal)
abbrev I2 := (⟨S16x2097152, .i32⟩ : BufTy).Contents (Elt Ideal)
abbrev Pts := (⟨S2097152x3, .f32⟩ : BufTy).Contents (Elt Ideal)

/-- The integer grid cell of every point at every level. -/
def cell (x : Pts) : I3 :=
  fptosi 32 (Host.floor (mulf
    (broadcastInDim S16x2097152x3 ![0, 1, 2] bcast_S1x2097152x3_S16x2097152x3_0_1_2
      (broadcastInDim S1x2097152x3 ![1, 2] bcast_S2097152x3_S1x2097152x3_1_2 x))
    (broadcastInDim S16x2097152x3 ![0, 1, 2] bcast_S16x1x1_S16x2097152x3_0_1_2
      (broadcastInDim S16x1x1 ![0] bcast_S16_S16x1x1_0
        (fun i => FloatOps.ofBits (F := Ideal) .f32 (lit0 (S16.rowMajor i)))))))

/-- One coordinate of the cell (sliced off the last axis) times its fixed multiplier. -/
def scaled (off : Fin S16x2097152x3.rank → Nat) (hs : S16x2097152x3.Slices off S16x2097152x1) (p : BitVec 32) (c : I3) : I2 :=
  muli (shapeCast S16x2097152 (extractStridedSlice S16x2097152x1 off c hs) shapeCasts_S16x2097152x1_S16x2097152)
    (broadcastInDim S16x2097152 ![] bcast_S_S16x2097152 (constantI S_ 32 p))

/-- The three scaled coordinates combined bit by bit. -/
def mixed (c : I3) : I2 :=
  xori (xori (scaled ![0, 0, 0] slices_S16x2097152x3_S16x2097152x1_0_0_0 73856093#32 c)
      (scaled ![0, 0, 1] slices_S16x2097152x3_S16x2097152x1_0_0_1 19349663#32 c))
    (scaled ![0, 0, 2] slices_S16x2097152x3_S16x2097152x1_0_0_2 83492791#32 c)

/-- The divisor the remainder is taken by: the table length, replaced by one if it were zero. -/
def divisor : (⟨S_, .i32⟩ : BufTy).Contents (Elt Ideal) :=
  select (cmpi .eq (constantI S_ 32 524288#32) (constantI S_ 32 0#32)) (constantI S_ 32 1#32) (constantI S_ 32 524288#32)

/-- The truncating remainder by the divisor. -/
def truncRem (h : I2) : I2 := Host.remsi h (broadcastInDim S16x2097152 ![] bcast_S_S16x2097152 divisor)

/-- The remainder with the divisor's sign: the divisor is added back where the truncating remainder is nonzero and
    its sign differs from the divisor's. -/
def floorRem (t : I2) : I2 :=
  select
    (andi
      (cmpi .ne (cmpi .slt t (broadcastInDim S16x2097152 ![] bcast_S_S16x2097152 (constantI S_ 32 0#32)))
        (broadcastInDim S16x2097152 ![] bcast_S_S16x2097152 (cmpi .slt divisor (constantI S_ 32 0#32))))
      (cmpi .ne t (broadcastInDim S16x2097152 ![] bcast_S_S16x2097152 (constantI S_ 32 0#32))))
    (addi t (broadcastInDim S16x2097152 ![] bcast_S_S16x2097152 divisor))
    t

/-- The table row: a negative remainder moved up by the table length. -/
def rowOf (f : I2) : I2 :=
  select (cmpi .slt f (broadcastInDim S16x2097152 ![] bcast_S_S16x2097152 (constantI S_ 32 0#32)))
    (addi f (broadcastInDim S16x2097152 ![] bcast_S_S16x2097152 (constantI S_ 32 524288#32)))
    f

/-- The 35 features of every point from the row indices: the sixteen looked-up rows side by side, then the direction. -/
def featOf (r : I2) (vd : Pts) (tb : (⟨S16x524288x2, .f32⟩ : BufTy).Contents (Elt Ideal)) :
    (⟨S2097152x35, .f32⟩ : BufTy).Contents (Elt Ideal) :=
  concatenate S2097152x35 1
    [⟨S2097152x32, shapeCast S2097152x32
        (transpose S2097152x16x2 [1, 0, 2]
          (Host.gather gather_S16x524288x2_S16x2097152x1_S16x2097152x2_2_1_0_0_1_2_112 tb
            (broadcastInDim S16x2097152x1 ![0, 1] bcast_S16x2097152_S16x2097152x1_0_1 r))
          transposes_S16x2097152x2_S2097152x16x2_1_0_2)
        shapeCasts_S2097152x16x2_S2097152x32⟩,
     ⟨S2097152x3, vd⟩]
    concatenates_S2097152x32_S2097152x3_S2097152x35_d1

/-- The feature array as a function of the three argument arrays. -/
def feat (x vd : Pts) (tb : (⟨S16x524288x2, .f32⟩ : BufTy).Contents (Elt Ideal)) :
    (⟨S2097152x35, .f32⟩ : BufTy).Contents (Elt Ideal) :=
  featOf (rowOf (floorRem (truncRem (mixed (cell x))))) vd tb

/-- The contents after two lists of operations run one after the other. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

/-! ### The four stretches of the shared operations, each read as a function of what it is entered with -/

/-- Scaling, rounding and mixing: the combined word from the points; and the table length the next stretch divides by. -/
theorem mix_stage (W : Valuation τ sig (Elt Ideal)) :
    after (pre.take 26) W (Proc.devRef .tc main_v20) = mixed (cell (W (Proc.devRef .tc main_arg0)))
    ∧ after (pre.take 26) W (Proc.devRef .tc main_c_2) = constantI S_ 32 524288#32 := by
  generalize hx : W (Proc.devRef .tc main_arg0) = x
  constructor
  · simp only [pre, List.take, List.drop]
    after_results_simp
    rw [hx]
    rfl
  · simp only [pre, List.take, List.drop]
    after_results_simp

/-- The called remainder: the non-negative-divisor remainder of the word it is entered with. -/
theorem remainder_stage (W : Valuation τ sig (Elt Ideal)) (hc : W (Proc.devRef .tc main_c_2) = constantI S_ 32 524288#32) :
    after ((pre.drop 26).take 21) W (Proc.devRef .tc main_v21) = floorRem (truncRem (W (Proc.devRef .tc main_v20))) := by
  generalize hh : W (Proc.devRef .tc main_v20) = h
  simp only [pre, List.take, List.drop]
  after_results_simp
  rw [hh, hc]
  rfl

/-- The row index from the remainder. -/
theorem row_stage (W : Valuation τ sig (Elt Ideal)) :
    after (((pre.drop 26).drop 21).take 7) W (Proc.devRef .tc main_v26) = rowOf (W (Proc.devRef .tc main_v21)) := by
  generalize hf : W (Proc.devRef .tc main_v21) = f
  simp only [pre, List.take, List.drop]
  after_results_simp
  rw [hf]
  rfl

/-- The look-up and the laying out of the features. -/
theorem lookup_stage (W : Valuation τ sig (Elt Ideal)) :
    after (((pre.drop 26).drop 21).drop 7) W (Proc.devRef .tc main_v31)
      = featOf (W (Proc.devRef .tc main_v26)) (W (Proc.devRef .tc main_arg1)) (W (Proc.devRef .tc main_arg2)) := by
  generalize hr : W (Proc.devRef .tc main_v26) = r
  generalize hvd : W (Proc.devRef .tc main_arg1) = vd
  generalize htb : W (Proc.devRef .tc main_arg2) = tb
  simp only [pre, List.take, List.drop]
  after_results
  rw [hr, hvd, htb]
  rfl

/-- The first three stretches write none of the argument arrays the look-up reads. -/
theorem kept_through (W : Valuation τ sig (Elt Ideal)) :
    after (((pre.drop 26).drop 21).take 7) (after ((pre.drop 26).take 21) (after (pre.take 26) W)) (Proc.devRef .tc main_arg1) = W (Proc.devRef .tc main_arg1)
    ∧ after (((pre.drop 26).drop 21).take 7) (after ((pre.drop 26).take 21) (after (pre.take 26) W)) (Proc.devRef .tc main_arg2) = W (Proc.devRef .tc main_arg2) := by
  constructor <;>
  · simp only [pre, List.take, List.drop]
    after_results_simp

/-- All four stretches: the feature array from the three argument arrays. -/
theorem feat_stages (W : Valuation τ sig (Elt Ideal)) :
    after (((pre.drop 26).drop 21).drop 7) (after (((pre.drop 26).drop 21).take 7) (after ((pre.drop 26).take 21) (after (pre.take 26) W))) (Proc.devRef .tc main_v31)
      = feat (W (Proc.devRef .tc main_arg0)) (W (Proc.devRef .tc main_arg1)) (W (Proc.devRef .tc main_arg2)) := by
  obtain ⟨h20, hc⟩ := mix_stage (after [] W)
  rw [after_nil] at h20 hc
  obtain ⟨k1, k2⟩ := kept_through W
  rw [lookup_stage, row_stage, remainder_stage _ hc, h20, k1, k2]
  rfl

/-- The 59 operations up to the feature array leave it at the feature array of the contents they are entered with. -/
theorem pre_feat (W : Valuation τ sig (Elt Ideal)) :
    after pre W (Proc.devRef .tc main_v31)
      = feat (W (Proc.devRef .tc main_arg0)) (W (Proc.devRef .tc main_arg1)) (W (Proc.devRef .tc main_arg2)) := by
  rw [show (pre : List (HloOp τ sig (Elt Ideal))) = pre.take 26 ++ ((pre.drop 26).take 21 ++ (((pre.drop 26).drop 21).take 7 ++ ((pre.drop 26).drop 21).drop 7)) from by
      simp only [List.take_append_drop],
    after_append, after_append, after_append]
  exact feat_stages _

end Cert.ReferenceIdeal.Hand

end
-- ==== Proof.RefValue.lean ====
/-
  What the reference program computes, entry by entry. After the feature array, its @main is three dense layers on the
  whole [2097152, 35] array (the rectifier after the first two), then two results cut from the four outputs: columns
  0, 1, 2 through the logistic function, spelled 1 / (1 + exp(-v)), and column 3 through the rectifier. Read at row r,
  every entry is the one-row network (Mlp.net) on row r of the feature array, finished by the column's last step.
-/
import proofs.«154115_j44495861186617_1_alg».proof.Proof.RefRun
import proofs.«154115_j44495861186617_1_alg».proof.Proof.FeatR
import proofs.«154115_j44495861186617_1_alg».proof.Proof.LibDense
import Idealize.ShloMosaic.Lib.Pipeline.Value

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Proof

abbrev A35 := FVec Ideal S2097152x35 .f32
abbrev A64 := FVec Ideal S2097152x64 .f32
abbrev A4 := FVec Ideal S2097152x4 .f32

/-! ## The network's operations as four array-level stages -/

/-- The first hidden layer on the whole array. -/
def hid1 (h : A35) (W0 : FVec Ideal S35x64 .f32) (b0 : FVec Ideal S64 .f32) : A64 :=
  maximumf (addf (Host.dotGeneral dot_S2097152x35_S35x64_S2097152x64_1_0_0_1_n_n none h W0)
      (broadcastInDim S2097152x64 ![0, 1] bcast_S1x64_S2097152x64_0_1 (broadcastInDim S1x64 ![1] bcast_S64_S1x64_1 b0)))
    (broadcastInDim S2097152x64 ![] bcast_S_S2097152x64 (constant (F := Ideal) S_ .f32 0x00000000#32))

/-- The second hidden layer. -/
def hid2 (g : A64) (W1 : FVec Ideal S64x64 .f32) (b1 : FVec Ideal S64 .f32) : A64 :=
  maximumf (addf (Host.dotGeneral dot_S2097152x64_S64x64_S2097152x64_1_0_0_1_n_n none g W1)
      (broadcastInDim S2097152x64 ![0, 1] bcast_S1x64_S2097152x64_0_1 (broadcastInDim S1x64 ![1] bcast_S64_S1x64_1 b1)))
    (broadcastInDim S2097152x64 ![] bcast_S_S2097152x64 (constant (F := Ideal) S_ .f32 0x00000000#32))

/-- The four outputs of every point, before the last step. -/
def outs (g : A64) (W2 : FVec Ideal S64x4 .f32) (b2 : FVec Ideal S4 .f32) : A4 :=
  addf (Host.dotGeneral dot_S2097152x64_S64x4_S2097152x4_1_0_0_1_n_n none g W2)
    (broadcastInDim S2097152x4 ![0, 1] bcast_S1x4_S2097152x4_0_1 (broadcastInDim S1x4 ![1] bcast_S4_S1x4_1 b2))

/-- The first result: columns 0, 1, 2 through 1 / (1 + exp(-v)). -/
def rgbOf (o : A4) : FVec Ideal S2097152x3 .f32 :=
  Host.divf (broadcastInDim S2097152x3 ![] bcast_S_S2097152x3 (constant (F := Ideal) S_ .f32 0x3F800000#32))
    (addf (broadcastInDim S2097152x3 ![] bcast_S_S2097152x3 (constant (F := Ideal) S_ .f32 0x3F800000#32))
      (Host.exp (Host.negf (extractStridedSlice S2097152x3 ![0, 0] o slices_S2097152x4_S2097152x3_0_0))))

/-- The second result: column 3 through the rectifier. -/
def sigmaOf (o : A4) : FVec Ideal S2097152x1 .f32 :=
  maximumf (extractStridedSlice S2097152x1 ![0, 3] o slices_S2097152x4_S2097152x1_0_3)
    (broadcastInDim S2097152x1 ![] bcast_S_S2097152x1 (constant (F := Ideal) S_ .f32 0x00000000#32))

/-- The four outputs as a function of the feature array and the six parameter arrays. -/
def outsOf (h : A35) (W0 : FVec Ideal S35x64 .f32) (b0 : FVec Ideal S64 .f32)
    (W1 : FVec Ideal S64x64 .f32) (b1 : FVec Ideal S64 .f32)
    (W2 : FVec Ideal S64x4 .f32) (b2 : FVec Ideal S4 .f32) : A4 :=
  outs (hid2 (hid1 h W0 b0) W1 b1) W2 b2

/-! ## Each stage at an entry -/

theorem hid1_apply (h : A35) (W0 b0) (r : Fin 2097152) (k : Fin 64) :
    hid1 h W0 b0 (ix2 r k) = Mlp.relu (Mlp.dense (fun a => h (ix2 r a)) (fun a n => W0 (ix2 a n)) (fun n => b0 (ix1 n)) k) := by
  unfold hid1
  rw [LibDense.relu_host_apply, LibDense.dense_host_apply dot_S2097152x35_S35x64_S2097152x64_1_0_0_1_n_n rfl]

theorem hid2_apply (g : A64) (W1 b1) (r : Fin 2097152) (k : Fin 64) :
    hid2 g W1 b1 (ix2 r k) = Mlp.relu (Mlp.dense (fun a => g (ix2 r a)) (fun a n => W1 (ix2 a n)) (fun n => b1 (ix1 n)) k) := by
  unfold hid2
  rw [LibDense.relu_host_apply, LibDense.dense_host_apply dot_S2097152x64_S64x64_S2097152x64_1_0_0_1_n_n rfl]

theorem outs_apply (g : A64) (W2 b2) (r : Fin 2097152) (j : Fin 4) :
    outs g W2 b2 (ix2 r j) = Mlp.dense (fun a => g (ix2 r a)) (fun a n => W2 (ix2 a n)) (fun n => b2 (ix1 n)) j := by
  unfold outs
  rw [LibDense.dense_host_apply dot_S2097152x64_S64x4_S2097152x4_1_0_0_1_n_n rfl]

/-- The four outputs of point r are the one-row network on row r of the feature array. -/
theorem outsOf_apply (h : A35) (W0 b0 W1 b1 W2 b2) (r : Fin 2097152) (j : Fin 4) :
    outsOf h W0 b0 W1 b1 W2 b2 (ix2 r j)
      = Mlp.net (fun a => h (ix2 r a)) (fun a n => W0 (ix2 a n)) (fun n => b0 (ix1 n)) (fun a n => W1 (ix2 a n)) (fun n => b1 (ix1 n))
          (fun a n => W2 (ix2 a n)) (fun n => b2 (ix1 n)) j := by
  unfold outsOf Mlp.net
  rw [outs_apply]
  simp only [hid2_apply, hid1_apply]

/-- Entry (r, j) of the first result is the logistic function of output j. -/
theorem rgbOf_apply (o : A4) (r : Fin 2097152) (j : Fin 3) : rgbOf o (ix2 r j) = Ideal.logistic (o (ix2 r j.castSucc)) := by
  unfold rgbOf
  show FloatOps.hostDivf (F := Ideal) (φ := .f32) _ (FloatOps.addf (F := Ideal) (φ := .f32) _ (FloatOps.hostUnary (F := Ideal) (φ := .f32) .exp (FloatOps.hostNegf (F := Ideal) (φ := .f32) _))) = _
  rw [broadcastInDim_apply ![] bcast_S_S2097152x3 _ (ix2 r j) ix0 (fun a => a.elim0), constant_apply,
    extractStridedSlice_apply ![0, 0] o slices_S2097152x4_S2097152x3_0_0 (ix2 r j) (ix2 r j.castSucc) (fun a => by
      match a with
      | ⟨0, _⟩ => show r.val = 0 + r.val; omega
      | ⟨1, _⟩ => show j.val = 0 + j.val; omega)]
  exact Mlp.logistic_spelt _

/-- Entry (r, 0) of the second result is the rectifier of output 3. -/
theorem sigmaOf_apply (o : A4) (r : Fin 2097152) : sigmaOf o (ix2 r (0 : Fin 1)) = Mlp.relu (o (ix2 r (3 : Fin 4))) := by
  unfold sigmaOf
  rw [LibDense.relu_host_apply,
    extractStridedSlice_apply ![0, 3] o slices_S2097152x4_S2097152x1_0_3 (ix2 r (0 : Fin 1)) (ix2 r (3 : Fin 4)) (fun a => by
      match a with
      | ⟨0, _⟩ => show r.val = 0 + r.val; omega
      | ⟨1, _⟩ => rfl)]

/-! ## The network's 31 operations, read as those stages -/

/-- What the network's operations leave in the two result buffers and in the argument arrays, from any contents. -/
theorem mlp_stage (W : Valuation τ sig (Elt Ideal)) :
    after mlp W (Proc.devRef .tc main_v52)
        = rgbOf (outsOf (W (Proc.devRef .tc main_v31)) (W (Proc.devRef .tc main_arg3)) (W (Proc.devRef .tc main_arg4))
            (W (Proc.devRef .tc main_arg5)) (W (Proc.devRef .tc main_arg6)) (W (Proc.devRef .tc main_arg7)) (W (Proc.devRef .tc main_arg8)))
    ∧ after mlp W (Proc.devRef .tc main_v54)
        = sigmaOf (outsOf (W (Proc.devRef .tc main_v31)) (W (Proc.devRef .tc main_arg3)) (W (Proc.devRef .tc main_arg4))
            (W (Proc.devRef .tc main_arg5)) (W (Proc.devRef .tc main_arg6)) (W (Proc.devRef .tc main_arg7)) (W (Proc.devRef .tc main_arg8))) := by
  generalize e31 : W (Proc.devRef .tc main_v31) = h
  generalize e3 : W (Proc.devRef .tc main_arg3) = W0
  generalize e4 : W (Proc.devRef .tc main_arg4) = b0
  generalize e5 : W (Proc.devRef .tc main_arg5) = W1
  generalize e6 : W (Proc.devRef .tc main_arg6) = b1
  generalize e7 : W (Proc.devRef .tc main_arg7) = W2
  generalize e8 : W (Proc.devRef .tc main_arg8) = b2
  constructor <;>
  · simp only [mlp]
    after_results_simp
    -- a called function's lines carry their values along the equation "this buffer's type is the value's type",
    -- which here is an equation between one type and itself: the transports are the identity
    simp only [TRef.toBuf, TRef.ofBuf, cast_eq]
    rw [e31, e3, e4, e5, e6, e7, e8]
    rfl

end Cert.ReferenceIdeal.Hand

end
-- ==== Proof.RefFinal.lean ====
/-
  The reference program's run with its two results named: every weakly fair execution ends with the first result at
  the logistic columns and the second at the rectifier column of the network's four outputs on the feature array of
  the launch contents, and with the nine argument arrays as launched.
-/
import proofs.«154115_j44495861186617_1_alg».proof.Proof.RefValue

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- The four outputs of every point, from the nine argument arrays. -/
def outsArgs (x vd : FVec Ideal S2097152x3 .f32) (tb : FVec Ideal S16x524288x2 .f32) (W0 : FVec Ideal S35x64 .f32) (b0 : FVec Ideal S64 .f32)
    (W1 : FVec Ideal S64x64 .f32) (b1 : FVec Ideal S64 .f32) (W2 : FVec Ideal S64x4 .f32) (b2 : FVec Ideal S4 .f32) : FVec Ideal S2097152x4 .f32 :=
  outsOf (feat x vd tb) W0 b0 W1 b1 W2 b2

/-- The operations up to the feature array write no argument array. -/
theorem pre_keeps (W : Valuation τ sig (Elt Ideal)) :
    after pre W (Proc.devRef .tc main_arg0) = W (Proc.devRef .tc main_arg0)
    ∧ after pre W (Proc.devRef .tc main_arg1) = W (Proc.devRef .tc main_arg1)
    ∧ after pre W (Proc.devRef .tc main_arg2) = W (Proc.devRef .tc main_arg2)
    ∧ after pre W (Proc.devRef .tc main_arg3) = W (Proc.devRef .tc main_arg3)
    ∧ after pre W (Proc.devRef .tc main_arg4) = W (Proc.devRef .tc main_arg4)
    ∧ after pre W (Proc.devRef .tc main_arg5) = W (Proc.devRef .tc main_arg5)
    ∧ after pre W (Proc.devRef .tc main_arg6) = W (Proc.devRef .tc main_arg6)
    ∧ after pre W (Proc.devRef .tc main_arg7) = W (Proc.devRef .tc main_arg7)
    ∧ after pre W (Proc.devRef .tc main_arg8) = W (Proc.devRef .tc main_arg8) := by
  refine ⟨?_, ?_, ?_, ?_, ?_, ?_, ?_, ?_, ?_⟩ <;>
  · simp only [pre]
    after_results_simp

/-- Nor do the network's operations. -/
theorem mlp_keeps (W : Valuation τ sig (Elt Ideal)) :
    after mlp W (Proc.devRef .tc main_arg0) = W (Proc.devRef .tc main_arg0)
    ∧ after mlp W (Proc.devRef .tc main_arg1) = W (Proc.devRef .tc main_arg1)
    ∧ after mlp W (Proc.devRef .tc main_arg2) = W (Proc.devRef .tc main_arg2)
    ∧ after mlp W (Proc.devRef .tc main_arg3) = W (Proc.devRef .tc main_arg3)
    ∧ after mlp W (Proc.devRef .tc main_arg4) = W (Proc.devRef .tc main_arg4)
    ∧ after mlp W (Proc.devRef .tc main_arg5) = W (Proc.devRef .tc main_arg5)
    ∧ after mlp W (Proc.devRef .tc main_arg6) = W (Proc.devRef .tc main_arg6)
    ∧ after mlp W (Proc.devRef .tc main_arg7) = W (Proc.devRef .tc main_arg7)
    ∧ after mlp W (Proc.devRef .tc main_arg8) = W (Proc.devRef .tc main_arg8) := by
  refine ⟨?_, ?_, ?_, ?_, ?_, ?_, ?_, ?_, ?_⟩ <;>
  · simp only [mlp]
    after_results_simp

/-- So no operation of @main writes an argument array. -/
theorem all_keep (W : Valuation τ sig (Elt Ideal)) :
    after (pre ++ mlp) W (Proc.devRef .tc main_arg0) = W (Proc.devRef .tc main_arg0)
    ∧ after (pre ++ mlp) W (Proc.devRef .tc main_arg1) = W (Proc.devRef .tc main_arg1)
    ∧ after (pre ++ mlp) W (Proc.devRef .tc main_arg2) = W (Proc.devRef .tc main_arg2)
    ∧ after (pre ++ mlp) W (Proc.devRef .tc main_arg3) = W (Proc.devRef .tc main_arg3)
    ∧ after (pre ++ mlp) W (Proc.devRef .tc main_arg4) = W (Proc.devRef .tc main_arg4)
    ∧ after (pre ++ mlp) W (Proc.devRef .tc main_arg5) = W (Proc.devRef .tc main_arg5)
    ∧ after (pre ++ mlp) W (Proc.devRef .tc main_arg6) = W (Proc.devRef .tc main_arg6)
    ∧ after (pre ++ mlp) W (Proc.devRef .tc main_arg7) = W (Proc.devRef .tc main_arg7)
    ∧ after (pre ++ mlp) W (Proc.devRef .tc main_arg8) = W (Proc.devRef .tc main_arg8) := by
  obtain ⟨p0, p1, p2, p3, p4, p5, p6, p7, p8⟩ := pre_keeps W
  obtain ⟨q0, q1, q2, q3, q4, q5, q6, q7, q8⟩ := mlp_keeps (after pre W)
  rw [after_append]
  exact ⟨q0.trans p0, q1.trans p1, q2.trans p2, q3.trans p3, q4.trans p4, q5.trans p5, q6.trans p6, q7.trans p7, q8.trans p8⟩

/-- The two result buffers after all of @main, from any contents. -/
theorem results (W : Valuation τ sig (Elt Ideal)) :
    after (pre ++ mlp) W (Proc.devRef .tc main_v52)
        = rgbOf (outsArgs (W (Proc.devRef .tc main_arg0)) (W (Proc.devRef .tc main_arg1)) (W (Proc.devRef .tc main_arg2))
            (W (Proc.devRef .tc main_arg3)) (W (Proc.devRef .tc main_arg4)) (W (Proc.devRef .tc main_arg5)) (W (Proc.devRef .tc main_arg6))
            (W (Proc.devRef .tc main_arg7)) (W (Proc.devRef .tc main_arg8)))
    ∧ after (pre ++ mlp) W (Proc.devRef .tc main_v54)
        = sigmaOf (outsArgs (W (Proc.devRef .tc main_arg0)) (W (Proc.devRef .tc main_arg1)) (W (Proc.devRef .tc main_arg2))
            (W (Proc.devRef .tc main_arg3)) (W (Proc.devRef .tc main_arg4)) (W (Proc.devRef .tc main_arg5)) (W (Proc.devRef .tc main_arg6))
            (W (Proc.devRef .tc main_arg7)) (W (Proc.devRef .tc main_arg8))) := by
  obtain ⟨-, -, -, k3, k4, k5, k6, k7, k8⟩ := pre_keeps W
  obtain ⟨h52, h54⟩ := mlp_stage (after pre W)
  rw [after_append, h52, h54, pre_feat, k3, k4, k5, k6, k7, k8]
  exact ⟨rfl, rfl⟩

/-- THE RUN, READ: both results named, the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52)
          = rgbOf (outsArgs (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)))
      ∧ r.2.mem ((c.tc : Thread nD τ).loc main_v54)
          = sigmaOf (outsArgs (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
    obtain ⟨r52, r54⟩ := results (launchContents m c)
    obtain ⟨a0, a1, a2, a3, a4, a5, a6, a7, a8⟩ := all_keep (launchContents m c)
    exact ⟨(h c main_v52).trans r52, (h c main_v54).trans r54, (h c main_arg0).trans a0, (h c main_arg1).trans a1, (h c main_arg2).trans a2,
      (h c main_arg3).trans a3, (h c main_arg4).trans a4, (h c main_arg5).trans a5, (h c main_arg6).trans a6, (h c main_arg7).trans a7,
      (h c main_arg8).trans a8⟩)
    (run_all (F := Ideal) m ρ)

end Cert.ReferenceIdeal.Hand

end
-- ==== Proof.Agree.lean ====
/-
  The two programs compute their feature arrays with the same host operations, spelled with the same shapes, the same
  side conditions and the same literals; only the name of the program each copy is printed under differs. So each
  stage of the one program IS the same stage of the other, as a function of its operand, and therefore so are the
  feature arrays as functions of the three argument arrays. Stated one stage at a time, over variables.
-/
import proofs.«154115_j44495861186617_1_alg».proof.Proof.FeatK
import proofs.«154115_j44495861186617_1_alg».proof.Proof.FeatR

noncomputable section

namespace Cert.Proof.Agree

open Idealize.ShloMosaic

theorem cell_eq (x : Cert.KernelIdeal.Hand.Pts) : Cert.ReferenceIdeal.Hand.cell x = Cert.KernelIdeal.Hand.cell x := rfl

theorem mixed_eq (c : Cert.KernelIdeal.Hand.I3) : Cert.ReferenceIdeal.Hand.mixed c = Cert.KernelIdeal.Hand.mixed c := rfl

theorem divisor_eq : Cert.ReferenceIdeal.Hand.divisor = Cert.KernelIdeal.Hand.divisor := rfl

theorem truncRem_eq (h : Cert.KernelIdeal.Hand.I2) : Cert.ReferenceIdeal.Hand.truncRem h = Cert.KernelIdeal.Hand.truncRem h := rfl

theorem floorRem_eq (t : Cert.KernelIdeal.Hand.I2) : Cert.ReferenceIdeal.Hand.floorRem t = Cert.KernelIdeal.Hand.floorRem t := rfl

theorem rowOf_eq (f : Cert.KernelIdeal.Hand.I2) : Cert.ReferenceIdeal.Hand.rowOf f = Cert.KernelIdeal.Hand.rowOf f := rfl

theorem featOf_eq (r : Cert.KernelIdeal.Hand.I2) (vd : Cert.KernelIdeal.Hand.Pts)
    (tb : (⟨Cert.KernelIdeal.S16x524288x2, .f32⟩ : BufTy).Contents (Elt Ideal)) :
    Cert.ReferenceIdeal.Hand.featOf r vd tb = Cert.KernelIdeal.Hand.featOf r vd tb := rfl

/-- The feature arrays of the two programs are one function of the three argument arrays. -/
theorem feat_eq (x vd : Cert.KernelIdeal.Hand.Pts) (tb : (⟨Cert.KernelIdeal.S16x524288x2, .f32⟩ : BufTy).Contents (Elt Ideal)) :
    Cert.ReferenceIdeal.Hand.feat x vd tb = Cert.KernelIdeal.Hand.feat x vd tb := by
  unfold Cert.ReferenceIdeal.Hand.feat Cert.KernelIdeal.Hand.feat
  rw [cell_eq, mixed_eq, truncRem_eq, floorRem_eq, rowOf_eq, featOf_eq]

end Cert.Proof.Agree

end
-- ==== Proof.lean ====
/-
  The certificate's claim. Both programs compute, for each of 2097152 points, a row of 35 features (sixteen looked-up
  table rows of two entries and the point's direction) by the same host operations, then a three-layer network on
  that row whose first three outputs go through the logistic function and whose fourth goes through the rectifier.
  The kernel's program runs the network on the matrix unit, 8192 points at a time, narrowing its operands to a shorter
  float format on the way into each product; over the extended reals a change of float format is the identity and a
  product accumulated from zero is the plain sum, so each of its outputs is the reference's output at the same point.
  The logistic function is one operation in the kernel and the expression 1 / (1 + exp(-v)) in the reference: one
  function on every extended real. No step uses that the inputs are finite.

  The three frames: the kernel's two are the generated frame certificates; the reference has no kernel, and its frame
  is its run with the results forgotten. The ideal pass rewrote nothing, so the idealization claim is trivial.
-/
import proofs.«154115_j44495861186617_1_alg».proof.Defs
import proofs.«154115_j44495861186617_1_alg».proof.Proof.Gen.Kernel
import proofs.«154115_j44495861186617_1_alg».proof.Proof.Gen.Kernel.Skeleton
import proofs.«154115_j44495861186617_1_alg».proof.Proof.Gen.Kernel.Launch
import proofs.«154115_j44495861186617_1_alg».proof.Proof.Gen.Kernel.Points
import proofs.«154115_j44495861186617_1_alg».proof.Proof.Gen.Kernel.Frame
import proofs.«154115_j44495861186617_1_alg».proof.Proof.Gen.KernelIdeal
import proofs.«154115_j44495861186617_1_alg».proof.Proof.Gen.KernelIdeal.Skeleton
import proofs.«154115_j44495861186617_1_alg».proof.Proof.Gen.KernelIdeal.Launch
import proofs.«154115_j44495861186617_1_alg».proof.Proof.Gen.KernelIdeal.Points
import proofs.«154115_j44495861186617_1_alg».proof.Proof.Gen.KernelIdeal.Frame
import proofs.«154115_j44495861186617_1_alg».proof.Proof.Gen.ReferenceIdeal
import proofs.«154115_j44495861186617_1_alg».proof.Proof.Gen.Pre_finite_inputs
import proofs.«154115_j44495861186617_1_alg».proof.Proof.KernelValue
import proofs.«154115_j44495861186617_1_alg».proof.Proof.RefFinal
import proofs.«154115_j44495861186617_1_alg».proof.Proof.Agree
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The kernel's two results at an entry -/

section Kernel

open Cert.KernelIdeal Cert.KernelIdeal.Gen Cert.KernelIdeal.Hand

variable (m : (ℓ : Loc nD τ sig) → Buf (Elt Ideal) ℓ)

/-- Output j of point r, as the kernel's program computes it from the launch contents. -/
abbrev netK (c : Dev nD) (r : Fin 2097152) (j : Fin 4) : EReal :=
  Mlp.net (fun a => Cert.KernelIdeal.Hand.feat (m ((c : Thread nD τ).loc main_arg0)) (m ((c : Thread nD τ).loc main_arg1)) (m ((c : Thread nD τ).loc main_arg2)) (ix2 r a))
    (fun a n => (m ((c : Thread nD τ).loc main_arg3) : FVec Ideal S35x64 .f32) (ix2 a n))
    (fun n => (m ((c : Thread nD τ).loc main_arg4) : FVec Ideal S64 .f32) (ix1 n))
    (fun a n => (m ((c : Thread nD τ).loc main_arg5) : FVec Ideal S64x64 .f32) (ix2 a n))
    (fun n => (m ((c : Thread nD τ).loc main_arg6) : FVec Ideal S64 .f32) (ix1 n))
    (fun a n => (m ((c : Thread nD τ).loc main_arg7) : FVec Ideal S64x4 .f32) (ix2 a n))
    (fun n => (m ((c : Thread nD τ).loc main_arg8) : FVec Ideal S4 .f32) (ix1 n)) j

/-- The output array at row r, column q, from the launch contents: the feature array is the shared function of the
    first three arguments, the weight matrices are as launched, each bias row's entry is the bias vector's. -/
theorem GV_apply (c : Dev nD) (r : Fin 2097152) (q : Fin 4) : GV m c (ix2 r q) = Mlp.head (netK m c r q) q := by
  obtain ⟨h32, h33, h34⟩ := bias_rows m c
  have e4 : (fun n : Fin 64 => shapeCast S1x64 (m ((c : Thread nD τ).loc main_arg4)) shapeCasts_S64_S1x64 (ix2 (0 : Fin 1) n))
      = fun n => (m ((c : Thread nD τ).loc main_arg4) : FVec Ideal S64 .f32) (ix1 n) := funext fun n => row_entry _ _ n
  have e6 : (fun n : Fin 64 => shapeCast S1x64 (m ((c : Thread nD τ).loc main_arg6)) shapeCasts_S64_S1x64 (ix2 (0 : Fin 1) n))
      = fun n => (m ((c : Thread nD τ).loc main_arg6) : FVec Ideal S64 .f32) (ix1 n) := funext fun n => row_entry _ _ n
  have e8 : (fun n : Fin 4 => shapeCast S1x4 (m ((c : Thread nD τ).loc main_arg8)) shapeCasts_S4_S1x4 (ix2 (0 : Fin 1) n))
      = fun n => (m ((c : Thread nD τ).loc main_arg8) : FVec Ideal S4 .f32) (ix1 n) := funext fun n => row_entry _ _ n
  show Mlp.head (Mlp.net (fun a => (V m c main_v31 : FVec Ideal S2097152x35 .f32) (ix2 r a))
      (fun a n => (V m c main_arg3 : FVec Ideal S35x64 .f32) (ix2 a n)) (fun n => (V m c main_v32 : FVec Ideal S1x64 .f32) (ix2 (0 : Fin 1) n))
      (fun a n => (V m c main_arg5 : FVec Ideal S64x64 .f32) (ix2 a n)) (fun n => (V m c main_v33 : FVec Ideal S1x64 .f32) (ix2 (0 : Fin 1) n))
      (fun a n => (V m c main_arg7 : FVec Ideal S64x4 .f32) (ix2 a n)) (fun n => (V m c main_v34 : FVec Ideal S1x4 .f32) (ix2 (0 : Fin 1) n)) q) q = _
  unfold netK
  rw [V_feat, V_main_arg3, V_main_arg5, V_main_arg7, h32, h33, h34, e4, e6, e8]

theorem rgbK_apply (c : Dev nD) (r : Fin 2097152) (j : Fin 3) : rgbK m c (ix2 r j) = Ideal.logistic (netK m c r j.castSucc) := by
  show extractStridedSlice S2097152x3 ![0, 0] (GV m c) slices_S2097152x4_S2097152x3_0_0 (ix2 r j) = _
  rw [extractStridedSlice_apply ![0, 0] (GV m c) slices_S2097152x4_S2097152x3_0_0 (ix2 r j) (ix2 r j.castSucc) (fun a => by
      match a with
      | ⟨0, _⟩ => show r.val = 0 + r.val; omega
      | ⟨1, _⟩ => show j.val = 0 + j.val; omega),
    GV_apply, Mlp.head_of_lt _ _ j.isLt]

theorem sigmaK_apply (c : Dev nD) (r : Fin 2097152) : sigmaK m c (ix2 r (0 : Fin 1)) = Mlp.relu (netK m c r (3 : Fin 4)) := by
  show extractStridedSlice S2097152x1 ![0, 3] (GV m c) slices_S2097152x4_S2097152x1_0_3 (ix2 r (0 : Fin 1)) = _
  rw [extractStridedSlice_apply ![0, 3] (GV m c) slices_S2097152x4_S2097152x1_0_3 (ix2 r (0 : Fin 1)) (ix2 r (3 : Fin 4)) (fun a => by
      match a with
      | ⟨0, _⟩ => show r.val = 0 + r.val; omega
      | ⟨1, _⟩ => rfl),
    GV_apply, Mlp.head_three]

end Kernel

/-! ## The reference's two results are the kernel's -/

section Agree

open Cert.ReferenceIdeal.Hand Cert.KernelIdeal

/-- The reference's first result, computed from the same nine arrays, is the kernel's. -/
theorem rgb_agree (m : (ℓ : Loc nD τ sig) → Buf (Elt Ideal) ℓ) (c : Dev nD) :
    rgbOf (outsArgs (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)))
      = Cert.KernelIdeal.Hand.rgbK m c := by
  funext i
  obtain ⟨r, j, rfl⟩ : ∃ (r : Fin 2097152) (j : Fin 3), i = ix2 r j := ⟨i 0, i 1, eq_ix2 i⟩
  rw [rgbOf_apply, rgbK_apply]
  unfold outsArgs
  rw [outsOf_apply, Agree.feat_eq]

/-- And so is its second. -/
theorem sigma_agree (m : (ℓ : Loc nD τ sig) → Buf (Elt Ideal) ℓ) (c : Dev nD) :
    sigmaOf (outsArgs (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)))
      = Cert.KernelIdeal.Hand.sigmaK m c := by
  funext i
  obtain ⟨r, j, rfl⟩ : ∃ (r : Fin 2097152) (j : Fin 1), i = ix2 r j := ⟨i 0, i 1, eq_ix2 i⟩
  obtain rfl : j = 0 := Subsingleton.elim _ _
  rw [sigmaOf_apply, sigmaK_apply]
  unfold outsArgs
  rw [outsOf_apply, Agree.feat_eq]

end Agree

/-! ## The claims -/

theorem frame_k : Cert.frame_Kernel := fun m ρ _ => Cert.Kernel.Gen.frame m ρ

theorem frame_ki : Cert.frame_KernelIdeal := fun m ρ _ => Cert.KernelIdeal.Gen.frame m ρ

/-- The reference's run with its two results forgotten. -/
theorem frame_ri : Cert.frame_ReferenceIdeal := fun m ρ _ =>
  (θ_run Cert.ReferenceIdeal.defs _ _).mono (fun _ h c => (h c).2.2) (Cert.ReferenceIdeal.Hand.run m ρ)

theorem preserves : Cert.preserves_Kernel_KernelIdeal := trivial

/-- Both programs run; the kernel's two results are named, and the reference's, from memories agreeing on the nine
    arguments, are the same two arrays. -/
theorem algebraic : Cert.algebraic_KernelIdeal_ReferenceIdeal := by
  intro m ρ m' ρ' _ hagree
  refine ⟨fun c => Cert.KernelIdeal.Hand.rgbK m c, fun c => Cert.KernelIdeal.Hand.sigmaK m c, Cert.KernelIdeal.Hand.run m ρ, ?_⟩
  refine (θ_run Cert.ReferenceIdeal.defs _ _).mono (fun _ h c => ?_) (Cert.ReferenceIdeal.Hand.run m' ρ')
  obtain ⟨h52, h54, hargs⟩ := h c
  obtain ⟨a0, a1, a2, a3, a4, a5, a6, a7, a8⟩ := hagree c
  refine ⟨h52.trans ?_, h54.trans ?_, hargs⟩
  · rw [a0, a1, a2, a3, a4, a5, a6, a7, a8]
    exact rgb_agree m c
  · rw [a0, a1, a2, a3, a4, a5, a6, a7, a8]
    exact sigma_agree m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
